-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x256 : Shape := ⟨3, ![4, 256, 256]⟩
abbrev S4x128x256 : Shape := ⟨3, ![4, 128, 256]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S_ : Shape := ⟨0, ![]⟩

class Facts : Prop where
  bcast_S_S4x256x256 : S_.BroadcastsInDim S4x256x256 (![] : Fin 0 → Fin S4x256x256.rank)
  reducesTo_S4x256x256_S_d0_1_2 : S4x256x256.ReducesTo [0, 1, 2] S_
  h_S_ : 0 < S_.numel
  bcast_S_S4x128x256 : S_.BroadcastsInDim S4x128x256 (![] : Fin 0 → Fin S4x128x256.rank)
  reducesTo_S4x128x256_S_d0_1_2 : S4x128x256.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S512x1024 .f32) (main_arg5 : FVec F S1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x256x256 .f32) (main_arg1 : FVec F S4x128x256 .f32) (main_arg2 : FVec F S512x512 .f32) (main_arg3 : FVec F S512 .f32) (main_arg4 : FVec F S512x1024 .f32) (main_arg5 : FVec F S1024 .f32) : IVec S_ 1 :=
  let main_v0 : FVec F S4x256x256 .f32 := Host.absf main_arg0
  let main_cst : FVec F S_ .f32 := constant S_ .f32 0x7F800000#32
  let main_v1 : FVec F S4x256x256 .f32 := broadcastInDim S4x256x256 ![] bcast_S_S4x256x256 main_cst
  let main_v2 : IVec S4x256x256 1 := cmpf .olt main_v0 main_v1
  let main_c : IVec S_ 1 := constantI S_ 1 1#1
  let main_v3 : IVec S_ 1 := (fun x v => Host.reduce IntOp.andi x v reducesTo_S4x256x256_S_d0_1_2 h_S_) main_v2 main_c
  let main_v4 : FVec F S4x128x256 .f32 := Host.absf main_arg1
  let main_cst_0 : FVec F S_ .f32 := constant S_ .f32 0x7F800000#32
  let main_v5 : FVec F S4x128x256 .f32 := broadcastInDim S4x128x256 ![] bcast_S_S4x128x256 main_cst_0
  let main_v6 : IVec S4x128x256 1 := cmpf .olt main_v4 main_v5
  let main_c_1 : IVec S_ 1 := constantI S_ 1 1#1
  let main_v7 : IVec S_ 1 := (fun x v => Host.reduce IntOp.andi x v reducesTo_S4x128x256_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S4x256x256 : Shape := ⟨3, ![4, 256, 256]⟩
abbrev S4x128x256 : Shape := ⟨3, ![4, 128, 256]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S256x512 : Shape := ⟨2, ![256, 512]⟩
abbrev S1x512 : Shape := ⟨2, ![1, 512]⟩
abbrev S1x1024 : Shape := ⟨2, ![1, 1024]⟩
abbrev S4x256x128x1024 : Shape := ⟨4, ![4, 256, 128, 1024]⟩
abbrev S1x8x256 : Shape := ⟨3, ![1, 8, 256]⟩
abbrev S1x128x256 : Shape := ⟨3, ![1, 128, 256]⟩
abbrev S1x8x128x1024 : Shape := ⟨4, ![1, 8, 128, 1024]⟩
abbrev S8x256 : Shape := ⟨2, ![8, 256]⟩
abbrev S128x256 : Shape := ⟨2, ![128, 256]⟩
abbrev S8x512 : Shape := ⟨2, ![8, 512]⟩
abbrev S128x512 : Shape := ⟨2, ![128, 512]⟩
abbrev S8x1x512 : Shape := ⟨3, ![8, 1, 512]⟩
abbrev S1x128x512 : Shape := ⟨3, ![1, 128, 512]⟩
abbrev S8x128x512 : Shape := ⟨3, ![8, 128, 512]⟩
abbrev S1x1x512 : Shape := ⟨3, ![1, 1, 512]⟩
abbrev S1024x512 : Shape := ⟨2, ![1024, 512]⟩
abbrev S1024x1024 : Shape := ⟨2, ![1024, 1024]⟩
abbrev S8x128x1024 : Shape := ⟨3, ![8, 128, 1024]⟩
abbrev S1x1x1024 : Shape := ⟨3, ![1, 1, 1024]⟩
abbrev S8x128 : Shape := ⟨2, ![8, 128]⟩
abbrev S8x128x1 : Shape := ⟨3, ![8, 128, 1]⟩

abbrev nBuf : Space → Nat
  | .hbm => 11
  | .vmem => 11
  | .smem => 0
  | _ => 0

abbrev bufTy : (tb : Table) → Fin (tcTables nBuf tb) → BufTy
  | .hbm, ⟨0, _⟩ => ⟨S4x256x256, .f32⟩
  | .hbm, ⟨1, _⟩ => ⟨S4x128x256, .f32⟩
  | .hbm, ⟨2, _⟩ => ⟨S512x512, .f32⟩
  | .hbm, ⟨3, _⟩ => ⟨S512, .f32⟩
  | .hbm, ⟨4, _⟩ => ⟨S512x1024, .f32⟩
  | .hbm, ⟨5, _⟩ => ⟨S1024, .f32⟩
  | .hbm, ⟨6, _⟩ => ⟨S256x512, .f32⟩
  | .hbm, ⟨7, _⟩ => ⟨S256x512, .f32⟩
  | .hbm, ⟨8, _⟩ => ⟨S1x512, .f32⟩
  | .hbm, ⟨9, _⟩ => ⟨S1x1024, .f32⟩
  | .hbm, ⟨10, _⟩ => ⟨S4x256x128x1024, .f32⟩
  | .local _ .vmem, ⟨0, _⟩ => ⟨S1x8x256, .f32⟩
  | .local _ .vmem, ⟨1, _⟩ => ⟨S1x8x256, .f32⟩
  | .local _ .vmem, ⟨2, _⟩ => ⟨S1x128x256, .f32⟩
  | .local _ .vmem, ⟨3, _⟩ => ⟨S1x128x256, .f32⟩
  | .local _ .vmem, ⟨4, _⟩ => ⟨S256x512, .f32⟩
  | .local _ .vmem, ⟨5, _⟩ => ⟨S256x512, .f32⟩
  | .local _ .vmem, ⟨6, _⟩ => ⟨S512x1024, .f32⟩
  | .local _ .vmem, ⟨7, _⟩ => ⟨S1x512, .f32⟩
  | .local _ .vmem, ⟨8, _⟩ => ⟨S1x1024, .f32⟩
  | .local _ .vmem, ⟨9, _⟩ => ⟨S1x8x128x1024, .f32⟩
  | .local _ .vmem, ⟨10, _⟩ => ⟨S1x8x128x1024, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S512x512_S256x512_0_0 : S512x512.Slices ![0, 0] S256x512
  slices_S512x512_S256x512_256_0 : S512x512.Slices ![256, 0] S256x512
  shapeCasts_S512_S1x512 : S512.ShapeCasts S1x512
  shapeCasts_S1024_S1x1024 : S1024.ShapeCasts S1x1024
  inb_S1x8x256_S1x8x256_0_0_0 : ∀ a, (![0, 0, 0] : Fin 3 → Nat) a + S1x8x256.size a ≤ S1x8x256.size a
  h_S1x8x256 : 0 < S1x8x256.numel
  shapeCasts_S1x8x256_S8x256 : S1x8x256.ShapeCasts S8x256
  bitsLt_bf16_f32 : FTy.bits .bf16 < FTy.bits .f32
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x1024_S512x1024_0_0 : ∀ a, (![0, 0] : Fin 2 → Nat) a + S512x1024.size a ≤ S512x1024.size a
  h_S512x1024 : 0 < S512x1024.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S8x512_S8x1x512 : S8x512.ShapeCasts S8x1x512
  shapeCasts_S128x512_S1x128x512 : S128x512.ShapeCasts S1x128x512
  broadcasts_S8x1x512_S8x128x512 : S8x1x512.Broadcasts S8x128x512
  broadcasts_S1x128x512_S8x128x512 : S1x128x512.Broadcasts S8x128x512
  shapeCasts_S1x512_S1x1x512 : S1x512.ShapeCasts S1x1x512
  broadcasts_S1x1x512_S8x128x512 : S1x1x512.Broadcasts S8x128x512
  shapeCasts_S8x128x512_S1024x512 : S8x128x512.ShapeCasts S1024x512
  shapeCasts_S1024x1024_S8x128x1024 : S1024x1024.ShapeCasts S8x128x1024
  shapeCasts_S1x1024_S1x1x1024 : S1x1024.ShapeCasts S1x1x1024
  broadcasts_S1x1x1024_S8x128x1024 : S1x1x1024.Broadcasts S8x128x1024
  reduces_S8x128x1024_S8x128 : S8x128x1024.Reduces [2] S8x128
  shapeCasts_S8x128_S8x128x1 : S8x128.ShapeCasts S8x128x1
  broadcasts_S8x128x1_S8x128x1024 : S8x128x1.Broadcasts S8x128x1024
  inb_S1x8x128x1024_S1x8x128x1024_0_0_0_0 : ∀ a, (![0, 0, 0, 0] : Fin 4 → Nat) a + S1x8x128x1024.size a ≤ S1x8x128x1024.size a
  h_S1x8x128x1024 : 0 < S1x8x128x1024.numel
  shapeCasts_S1x8x128x1024_S8x128x1024 : S1x8x128x1024.ShapeCasts S8x128x1024
  shapeCasts_S8x128x1024_S1x8x128x1024 : S8x128x1024.ShapeCasts S1x8x128x1024
  dot_S8x256_S256x512_S8x512_1_0_0_1_n_n_wf : DotDims.WF S8x256 S256x512 S8x512 [1] [0] [0] [1] [] []
  dot_S128x256_S256x512_S128x512_1_0_0_1_n_n_wf : DotDims.WF S128x256 S256x512 S128x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x256.size a ≤ S4x256x256.size a
  hwx0_0 : ∀ i : grid0.Coords, EltTy.bits .f32 = 32 ∨ (Rect.block (s := S4x256x256) S1x8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x256.size a ≤ S4x128x256.size a
  hwx0_1 : ∀ i : grid0.Coords, EltTy.bits .f32 = 32 ∨ (Rect.block (s := S4x128x256) S1x128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x1024.size a
  hwx0_4 : ∀ i : grid0.Coords, EltTy.bits .f32 = 32 ∨ (Rect.block (s := S512x1024) S512x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128x1024.size a ≤ S4x256x128x1024.size a
  hwx0_7 : ∀ i : grid0.Coords, EltTy.bits .f32 = 32 ∨ (Rect.block (s := S4x256x128x1024) S1x8x128x1024.size (cc0_transform_7 i) (hinb0_7 i)).WholeWords (EltTy.packing .f32)

variable [Facts₀]

def dot_S8x256_S256x512_S8x512_1_0_0_1_n_n : DotDims S8x256 S256x512 S8x512 where
  lhsContracting := [1]
  rhsContracting := [0]
  lhsNonContracting := [0]
  rhsNonContracting := [1]
  lhsBatch := []
  rhsBatch := []
  wf := dot_S8x256_S256x512_S8x512_1_0_0_1_n_n_wf
def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x8x128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x256x256 : Shape := ⟨3, ![4, 256, 256]⟩
abbrev S4x128x256 : Shape := ⟨3, ![4, 128, 256]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S4x256x1x256 : Shape := ⟨4, ![4, 256, 1, 256]⟩
abbrev S4x256x128x256 : Shape := ⟨4, ![4, 256, 128, 256]⟩
abbrev S4x1x128x256 : Shape := ⟨4, ![4, 1, 128, 256]⟩
abbrev S4x256x128x512 : Shape := ⟨4, ![4, 256, 128, 512]⟩
abbrev S1x1x1x512 : Shape := ⟨4, ![1, 1, 1, 512]⟩
abbrev S_ : Shape := ⟨0, ![]⟩
abbrev S4x256x128x1024 : Shape := ⟨4, ![4, 256, 128, 1024]⟩
abbrev S1x1x1x1024 : Shape := ⟨4, ![1, 1, 1, 1024]⟩
abbrev S4x256x128 : Shape := ⟨3, ![4, 256, 128]⟩
abbrev S4x256x128x1 : Shape := ⟨4, ![4, 256, 128, 1]⟩

abbrev nBuf : Space → Nat
  | .hbm => 37
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S4x128x256, .f32⟩
  | .hbm, ⟨2, _⟩ => ⟨S512x512, .f32⟩
  | .hbm, ⟨3, _⟩ => ⟨S512, .f32⟩
  | .hbm, ⟨4, _⟩ => ⟨S512x1024, .f32⟩
  | .hbm, ⟨5, _⟩ => ⟨S1024, .f32⟩
  | .hbm, ⟨6, _⟩ => ⟨S4x256x1x256, .f32⟩
  | .hbm, ⟨7, _⟩ => ⟨S4x256x128x256, .f32⟩
  | .hbm, ⟨8, _⟩ => ⟨S4x1x128x256, .f32⟩
  | .hbm, ⟨9, _⟩ => ⟨S4x256x128x256, .f32⟩
  | .hbm, ⟨10, _⟩ => ⟨S4x256x128x512, .f32⟩
  | .hbm, ⟨11, _⟩ => ⟨S4x256x128x512, .f32⟩
  | .hbm, ⟨12, _⟩ => ⟨S1x1x1x512, .f32⟩
  | .hbm, ⟨13, _⟩ => ⟨S4x256x128x512, .f32⟩
  | .hbm, ⟨14, _⟩ => ⟨S4x256x128x512, .f32⟩
  | .hbm, ⟨15, _⟩ => ⟨S_, .f32⟩
  | .hbm, ⟨16, _⟩ => ⟨S4x256x128x512, .f32⟩
  | .hbm, ⟨17, _⟩ => ⟨S4x256x128x512, .f32⟩
  | .hbm, ⟨18, _⟩ => ⟨S4x256x128x1024, .f32⟩
  | .hbm, ⟨19, _⟩ => ⟨S1x1x1x1024, .f32⟩
  | .hbm, ⟨20, _⟩ => ⟨S4x256x128x1024, .f32⟩
  | .hbm, ⟨21, _⟩ => ⟨S4x256x128x1024, .f32⟩
  | .hbm, ⟨22, _⟩ => ⟨S_, .f32⟩
  | .hbm, ⟨23, _⟩ => ⟨S4x256x128, .f32⟩
  | .hbm, ⟨24, _⟩ => ⟨S_, .f32⟩
  | .hbm, ⟨25, _⟩ => ⟨S4x256x128, .f32⟩
  | .hbm, ⟨26, _⟩ => ⟨S4x256x128, .f32⟩
  | .hbm, ⟨27, _⟩ => ⟨S4x256x128x1, .f32⟩
  | .hbm, ⟨28, _⟩ => ⟨S4x256x128x1024, .f32⟩
  | .hbm, ⟨29, _⟩ => ⟨S4x256x128x1024, .f32⟩
  | .hbm, ⟨30, _⟩ => ⟨S4x256x128x1024, .f32⟩
  | .hbm, ⟨31, _⟩ => ⟨S_, .f32⟩
  | .hbm, ⟨32, _⟩ => ⟨S4x256x128, .f32⟩
  | .hbm, ⟨33, _⟩ => ⟨S4x256x128x1, .f32⟩
  | .hbm, ⟨34, _⟩ => ⟨S4x256x128x1, .f32⟩
  | .hbm, ⟨35, _⟩ => ⟨S4x256x128x1024, .f32⟩
  | .hbm, ⟨36, _⟩ => ⟨S4x256x128x1024, .f32⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call1_cst : Ref sig .tc := ⟨.hbm, 22, rfl⟩
abbrev main_call1_v0 : Ref sig .tc := ⟨.hbm, 23, rfl⟩
abbrev main_call1_cst_0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_cst_1 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_v14 : Ref sig .tc := ⟨.hbm, 36, rfl⟩

abbrev nD : Nat := 1
abbrev τ : Topo := Topo.v7x

variable {F : FTy → Type} [FloatOps F]

class Facts₀ : Prop where
  bcast_S4x256x256_S4x256x1x256_0_1_3 : S4x256x256.BroadcastsInDim S4x256x1x256 (![0, 1, 3] : Fin 3 → Fin S4x256x1x256.rank)
  bcast_S4x256x1x256_S4x256x128x256_0_1_2_3 : S4x256x1x256.BroadcastsInDim S4x256x128x256 (![0, 1, 2, 3] : Fin 4 → Fin S4x256x128x256.rank)
  bcast_S4x128x256_S4x1x128x256_0_2_3 : S4x128x256.BroadcastsInDim S4x1x128x256 (![0, 2, 3] : Fin 3 → Fin S4x1x128x256.rank)
  bcast_S4x1x128x256_S4x256x128x256_0_1_2_3 : S4x1x128x256.BroadcastsInDim S4x256x128x256 (![0, 1, 2, 3] : Fin 4 → Fin S4x256x128x256.rank)
  concatenates_S4x256x128x256_S4x256x128x256_S4x256x128x512_d3 : Shape.Concatenates [S4x256x128x256, S4x256x128x256] S4x256x128x512 3
  bcast_S512_S1x1x1x512_3 : S512.BroadcastsInDim S1x1x1x512 (![3] : Fin 1 → Fin S1x1x1x512.rank)
  bcast_S1x1x1x512_S4x256x128x512_0_1_2_3 : S1x1x1x512.BroadcastsInDim S4x256x128x512 (![0, 1, 2, 3] : Fin 4 → Fin S4x256x128x512.rank)
  bcast_S_S4x256x128x512 : S_.BroadcastsInDim S4x256x128x512 (![] : Fin 0 → Fin S4x256x128x512.rank)
  bcast_S1024_S1x1x1x1024_3 : S1024.BroadcastsInDim S1x1x1x1024 (![3] : Fin 1 → Fin S1x1x1x1024.rank)
  bcast_S1x1x1x1024_S4x256x128x1024_0_1_2_3 : S1x1x1x1024.BroadcastsInDim S4x256x128x1024 (![0, 1, 2, 3] : Fin 4 → Fin S4x256x128x1024.rank)
  reducesTo_S4x256x128x1024_S4x256x128_d3 : S4x256x128x1024.ReducesTo [3] S4x256x128
  h_S_ : 0 < S_.numel
  bcast_S_S4x256x128 : S_.BroadcastsInDim S4x256x128 (![] : Fin 0 → Fin S4x256x128.rank)
  bcast_S4x256x128_S4x256x128x1_0_1_2 : S4x256x128.BroadcastsInDim S4x256x128x1 (![0, 1, 2] : Fin 3 → Fin S4x256x128x1.rank)
  bcast_S4x256x128x1_S4x256x128x1024_0_1_2_3 : S4x256x128x1.BroadcastsInDim S4x256x128x1024 (![0, 1, 2, 3] : Fin 4 → Fin S4x256x128x1024.rank)
  dot_S4x256x128x512_S512x512_S4x256x128x512_3_0_012_1_n_n_wf : DotDims.WF S4x256x128x512 S512x512 S4x256x128x512 [3] [0] [0, 1, 2] [1] [] []
  dot_S4x256x128x512_S512x1024_S4x256x128x1024_3_0_012_1_n_n_wf : DotDims.WF S4x256x128x512 S512x1024 S4x256x128x1024 [3] [0] [0, 1, 2] [1] [] []

variable [Facts₀]

def dot_S4x256x128x512_S512x512_S4x256x128x512_3_0_012_1_n_n : DotDims S4x256x128x512 S512x512 S4x256x128x512 where
  lhsContracting := [3]
  rhsContracting := [0]
  lhsNonContracting := [0, 1, 2]
  rhsNonContracting := [1]
  lhsBatch := []
  rhsBatch := []
  wf := dot_S4x256x128x512_S512x512_S4x256x128x512_3_0_012_1_n_n_wf
def dot_S4x256x128x512_S512x1024_S4x256x128x1024_3_0_012_1_n_n : DotDims S4x256x128x512 S512x1024 S4x256x128x1024 where
  lhsContracting := [3]
  rhsContracting := [0]
  lhsNonContracting := [0, 1, 2]
  rhsNonContracting := [1]
  lhsBatch := []
  rhsBatch := []
  wf := dot_S4x256x128x512_S512x1024_S4x256x128x1024_3_0_012_1_n_n_wf

class Facts : Prop extends Facts₀ where

variable [Facts]
-- ==== Proof.Spec.lean ====
/-
  The joint network's value, as one function of the six argument arrays.

  For a batch entry b, a source position t and a target position s the network forms the row
      x = [ src(b,t,·) , tgt(b,s,·) ]                               (512 features: 256 of the source, 256 of the target)
      hid(h)   = max( Σ_f x(f) · W1(f,h) + b1(h) , 0 )              (512 hidden units)
      logit(v) = Σ_h hid(h) · W2(h,v) + b2(v)                       (1024 classes)
      out(v)   = (logit(v) − M) − log Σ_v' exp(logit(v') − M),   M = max_v' logit(v')
  the log-softmax of the logits along the class axis, shifted by the row's maximum.

  The product of the concatenated row with W1 is the sum of the source half against W1's first 256 rows and the
  target half against its last 256 rows: a sum over 512 indices split at 256 (`sum_split`), which holds in any
  additive commutative monoid — on the extended reals without any finiteness.  The row's value is written here
  already split (`logitOf`), over accessor functions, so that the same text serves the whole arrays (`G`) and
  one block of them.
-/
import Idealize.ShloMosaic.PureOps.Ideal
import Idealize.ShloMosaic.PureOps.Ideal.Laws
import Idealize.ShloMosaic.Lib.ValueIdx

noncomputable section

namespace Cert.JointSpec

open Idealize.ShloMosaic Idealize.ShloMosaic.ValueIdx

/-- A sum over 512 indices is the sum over the first 256 plus the sum over the last 256. -/
theorem sum_split {M : Type*} [AddCommMonoid M] (g : Fin 512 → M) :
    ∑ k : Fin 512, g k
      = ∑ f : Fin 256, g ⟨f.val, by have := f.isLt; omega⟩ + ∑ f : Fin 256, g ⟨256 + f.val, by have := f.isLt; omega⟩ :=
  Fin.sum_univ_add (a := 256) (b := 256) g

/-- The f32 word of −∞ is the bottom of the extended reals. -/
theorem ofBits_neg_inf : Ideal.ofBits .f32 0xFF800000#32 = (⊥ : EReal) := by simp [Ideal.ofBits, Ideal.ieee]

/-- The maximum with −∞ is the other operand. -/
theorem max_neg_inf (x : EReal) : max (Ideal.ofBits .f32 0xFF800000#32) x = x := by
  rw [ofBits_neg_inf]; exact max_bot_left x

/-- One row's logits: the two halves of the first layer, the bias, the rectifier, the second layer and its bias. -/
def logitOf (srcRow tgtRow : Fin 256 → EReal) (w1a w1b : Fin 256 → Fin 512 → EReal) (b1 : Fin 512 → EReal)
    (w2 : Fin 512 → Fin 1024 → EReal) (b2 : Fin 1024 → EReal) (v : Fin 1024) : EReal :=
  (∑ h : Fin 512, max ((∑ f : Fin 256, srcRow f * w1a f h + ∑ f : Fin 256, tgtRow f * w1b f h) + b1 h)
      (Ideal.ofBits .f32 0x00000000#32) * w2 h v) + b2 v

/-- A row's maximum, folded from −∞. -/
def rowMax (L : Fin 1024 → EReal) : EReal :=
  (Finset.univ : Finset (Fin 1024)).fold max (Ideal.ofBits .f32 0xFF800000#32) L

/-- The log-softmax of a row of 1024 logits, shifted by the row's maximum. -/
def logSoftmax (L : Fin 1024 → EReal) (v : Fin 1024) : EReal :=
  (L v - rowMax L) - Ideal.log (∑ k : Fin 1024, Ideal.exp (L k - rowMax L))

/-- One row of the result, from the row's data. -/
def rowOut (srcRow tgtRow : Fin 256 → EReal) (w1a w1b : Fin 256 → Fin 512 → EReal) (b1 : Fin 512 → EReal)
    (w2 : Fin 512 → Fin 1024 → EReal) (b2 : Fin 1024 → EReal) (v : Fin 1024) : EReal :=
  logSoftmax (logitOf srcRow tgtRow w1a w1b b1 w2 b2) v

abbrev SSrc : Shape := ⟨3, ![4, 256, 256]⟩
abbrev STgt : Shape := ⟨3, ![4, 128, 256]⟩
abbrev SW1 : Shape := ⟨2, ![512, 512]⟩
abbrev SB1 : Shape := ⟨1, ![512]⟩
abbrev SW2 : Shape := ⟨2, ![512, 1024]⟩
abbrev SB2 : Shape := ⟨1, ![1024]⟩
abbrev SOut : Shape := ⟨4, ![4, 256, 128, 1024]⟩

/-- The first 256 rows of W1 and its last 256 rows, as row indices of the whole matrix. -/
abbrev lo (f : Fin 256) : Fin 512 := ⟨f.val, by have := f.isLt; omega⟩
abbrev hi (f : Fin 256) : Fin 512 := ⟨256 + f.val, by have := f.isLt; omega⟩

/-- THE RESULT ARRAY as one function of the argument arrays: entry (b, t, s, v) is class v of the row of source
    position (b, t) and target position (b, s). -/
def G (src : SSrc.Idx → EReal) (tgt : STgt.Idx → EReal) (W1 : SW1.Idx → EReal) (b1 : SB1.Idx → EReal)
    (W2 : SW2.Idx → EReal) (b2 : SB2.Idx → EReal) : SOut.Idx → EReal := fun i =>
  rowOut (fun f => src (ix3 (i 0) (i 1) f)) (fun f => tgt (ix3 (i 0) (i 2) f))
    (fun f h => W1 (ix2 (lo f) h)) (fun f h => W1 (ix2 (hi f) h)) (fun h => b1 (ix1 h))
    (fun h v => W2 (ix2 h v)) (fun v => b2 (ix1 v)) (i 3)

end Cert.JointSpec

end
-- ==== Proof.Payload.lean ====
/-
  The kernel body's logits at an index.

  The body loads one block of eight source rows, the block of 128 target rows, the two halves of W1, W2 and the two
  biases, and forms for every pair (p, s) of a source row and a target row the 1024 logits of the joint network.
  Read at the index (p, s, v) its value is `JointSpec.logitOf` of row p of the source block and row s of the target
  block: each matrix product is a sum over the contracted index, each reshape and broadcast moves an index and
  changes no value, and a rounding to bf16 is the identity on the extended reals.
-/
import proofs.«118946_j26577257628395_1_alg».proof.Proof.Gen.KernelIdeal.Skeleton
import proofs.«118946_j26577257628395_1_alg».proof.Proof.Spec
import Idealize.ShloMosaic.Lib.Pipeline.Value
import Idealize.ShloMosaic.Lib.ValueIdx
import Idealize.ShloMosaic.PureOps.Ideal.Laws

noncomputable section

namespace Cert.KernelIdeal.RowValue

open Cert.KernelIdeal Cert.KernelIdeal.Gen Idealize.ShloMosaic Idealize.ShloMosaic.ValueIdx Cert.JointSpec

/-- A rows-by-columns product into the zero accumulator, read at (r, c): the sum over the contracted index k of the
    left operand at (r, k) times the right operand at (k, c). -/
theorem plain_matmul_zero (M K N : Nat) {φ₁ φ₂ : FTy} (a : FVec Ideal ⟨2, ![M, K]⟩ φ₁) (b : FVec Ideal ⟨2, ![K, N]⟩ φ₂)
    (r : Fin M) (c : Fin N) :
    FloatOps.matmul (DotDims.plain M K N) none a b (constant (F := Ideal) ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => rfl
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-! ## Reshapes and broadcasts of the body, read at an index

Each moves an index and changes no value: a reshape reads the operand at the index with the same row-major position,
a broadcast reads it at the coordinates kept, 0 on the operand's unit axes. -/

section Layout
variable {α : Type}

theorem rows_of_src_block (x : S1x8x256.Idx → α) (h : S1x8x256.ShapeCasts S8x256) (p : Fin 8) (f : Fin 256) :
    shapeCast S8x256 x h (ix2 p f) = x (ix3 0 p f) :=
  shapeCast_apply x h (ix2 p f) (ix3 0 p f) (by
    rw [Shape.rowMajor_val_three, Shape.rowMajor_val_two]
    show (0 * 8 + p.val) * 256 + f.val = p.val * 256 + f.val; omega)

theorem rows_of_tgt_block (x : S1x128x256.Idx → α) (h : S1x128x256.ShapeCasts S128x256) (s : Fin 128) (f : Fin 256) :
    shapeCast S128x256 x h (ix2 s f) = x (ix3 0 s f) :=
  shapeCast_apply x h (ix2 s f) (ix3 0 s f) (by
    rw [Shape.rowMajor_val_three, Shape.rowMajor_val_two]
    show (0 * 128 + s.val) * 256 + f.val = s.val * 256 + f.val; omega)

theorem src_part_mid_axis (x : S8x512.Idx → α) (h : S8x512.ShapeCasts S8x1x512) (p : Fin 8) (z : Fin 1) (k : Fin 512) :
    shapeCast S8x1x512 x h (ix3 p z k) = x (ix2 p k) :=
  shapeCast_apply x h (ix3 p z k) (ix2 p k) (by
    rw [Shape.rowMajor_val_three, Shape.rowMajor_val_two]
    show p.val * 512 + k.val = (p.val * 1 + z.val) * 512 + k.val; have := z.isLt; omega)

theorem tgt_part_lead_axis (x : S128x512.Idx → α) (h : S128x512.ShapeCasts S1x128x512) (z : Fin 1) (s : Fin 128) (k : Fin 512) :
    shapeCast S1x128x512 x h (ix3 z s k) = x (ix2 s k) :=
  shapeCast_apply x h (ix3 z s k) (ix2 s k) (by
    rw [Shape.rowMajor_val_three, Shape.rowMajor_val_two]
    show s.val * 512 + k.val = (z.val * 128 + s.val) * 512 + k.val; have := z.isLt; omega)

theorem bias1_lead_axis (x : S1x512.Idx → α) (h : S1x512.ShapeCasts S1x1x512) (z z' : Fin 1) (k : Fin 512) :
    shapeCast S1x1x512 x h (ix3 z z' k) = x (ix2 0 k) :=
  shapeCast_apply x h (ix3 z z' k) (ix2 0 k) (by
    rw [Shape.rowMajor_val_three, Shape.rowMajor_val_two]
    show 0 * 512 + k.val = (z.val * 1 + z'.val) * 512 + k.val; have := z.isLt; have := z'.isLt; omega)

theorem bias2_lead_axis (x : S1x1024.Idx → α) (h : S1x1024.ShapeCasts S1x1x1024) (z z' : Fin 1) (v : Fin 1024) :
    shapeCast S1x1x1024 x h (ix3 z z' v) = x (ix2 0 v) :=
  shapeCast_apply x h (ix3 z z' v) (ix2 0 v) (by
    rw [Shape.rowMajor_val_three, Shape.rowMajor_val_two]
    show 0 * 1024 + v.val = (z.val * 1 + z'.val) * 1024 + v.val; have := z.isLt; have := z'.isLt; omega)

/-- The pair (p, s) as one row index of the flattened hidden activations. -/
abbrev pairRow (p : Fin 8) (s : Fin 128) : Fin 1024 := ⟨p.val * 128 + s.val, by have := p.isLt; have := s.isLt; omega⟩

theorem hidden_flat (x : S8x128x512.Idx → α) (h : S8x128x512.ShapeCasts S1024x512) (p : Fin 8) (s : Fin 128) (k : Fin 512) :
    shapeCast S1024x512 x h (ix2 (pairRow p s) k) = x (ix3 p s k) :=
  shapeCast_apply x h (ix2 (pairRow p s) k) (ix3 p s k) (by
    rw [Shape.rowMajor_val_three, Shape.rowMajor_val_two]
    show (p.val * 128 + s.val) * 512 + k.val = (p.val * 128 + s.val) * 512 + k.val; rfl)

theorem logits_unflat (x : S1024x1024.Idx → α) (h : S1024x1024.ShapeCasts S8x128x1024) (p : Fin 8) (s : Fin 128) (v : Fin 1024) :
    shapeCast S8x128x1024 x h (ix3 p s v) = x (ix2 (pairRow p s) v) :=
  shapeCast_apply x h (ix3 p s v) (ix2 (pairRow p s) v) (by
    rw [Shape.rowMajor_val_three, Shape.rowMajor_val_two]
    show (p.val * 128 + s.val) * 1024 + v.val = (p.val * 128 + s.val) * 1024 + v.val; rfl)

theorem over_tgt_rows (x : S8x1x512.Idx → α) (h : S8x1x512.Broadcasts S8x128x512) (p : Fin 8) (s : Fin 128) (k : Fin 512) :
    broadcastTo S8x128x512 x h (ix3 p s k) = x (ix3 p 0 k) :=
  broadcastTo_apply x h (ix3 p s k) (ix3 p 0 k) (fun a => match a with
    | ⟨0, _⟩ => by show p.val = (if (8 : Nat) = 1 then 0 else p.val); rw [if_neg (by decide)]
    | ⟨1, _⟩ => by show 0 = (if (1 : Nat) = 1 then 0 else s.val); rw [if_pos rfl]
    | ⟨2, _⟩ => by show k.val = (if (512 : Nat) = 1 then 0 else k.val); rw [if_neg (by decide)])

theorem over_src_rows (x : S1x128x512.Idx → α) (h : S1x128x512.Broadcasts S8x128x512) (p : Fin 8) (s : Fin 128) (k : Fin 512) :
    broadcastTo S8x128x512 x h (ix3 p s k) = x (ix3 0 s k) :=
  broadcastTo_apply x h (ix3 p s k) (ix3 0 s k) (fun a => match a with
    | ⟨0, _⟩ => by show 0 = (if (1 : Nat) = 1 then 0 else p.val); rw [if_pos rfl]
    | ⟨1, _⟩ => by show s.val = (if (128 : Nat) = 1 then 0 else s.val); rw [if_neg (by decide)]
    | ⟨2, _⟩ => by show k.val = (if (512 : Nat) = 1 then 0 else k.val); rw [if_neg (by decide)])

theorem bias1_over_rows (x : S1x1x512.Idx → α) (h : S1x1x512.Broadcasts S8x128x512) (p : Fin 8) (s : Fin 128) (k : Fin 512) :
    broadcastTo S8x128x512 x h (ix3 p s k) = x (ix3 0 0 k) :=
  broadcastTo_apply x h (ix3 p s k) (ix3 0 0 k) (fun a => match a with
    | ⟨0, _⟩ => by show 0 = (if (1 : Nat) = 1 then 0 else p.val); rw [if_pos rfl]
    | ⟨1, _⟩ => by show 0 = (if (1 : Nat) = 1 then 0 else s.val); rw [if_pos rfl]
    | ⟨2, _⟩ => by show k.val = (if (512 : Nat) = 1 then 0 else k.val); rw [if_neg (by decide)])

theorem bias2_over_rows (x : S1x1x1024.Idx → α) (h : S1x1x1024.Broadcasts S8x128x1024) (p : Fin 8) (s : Fin 128) (v : Fin 1024) :
    broadcastTo S8x128x1024 x h (ix3 p s v) = x (ix3 0 0 v) :=
  broadcastTo_apply x h (ix3 p s v) (ix3 0 0 v) (fun a => match a with
    | ⟨0, _⟩ => by show 0 = (if (1 : Nat) = 1 then 0 else p.val); rw [if_pos rfl]
    | ⟨1, _⟩ => by show 0 = (if (1 : Nat) = 1 then 0 else s.val); rw [if_pos rfl]
    | ⟨2, _⟩ => by show v.val = (if (1024 : Nat) = 1 then 0 else v.val); rw [if_neg (by decide)])

theorem keepdims_col (x : S8x128.Idx → α) (h : S8x128.ShapeCasts S8x128x1) (p : Fin 8) (s : Fin 128) (z : Fin 1) :
    shapeCast S8x128x1 x h (ix3 p s z) = x (ix2 p s) :=
  shapeCast_apply x h (ix3 p s z) (ix2 p s) (by
    rw [Shape.rowMajor_val_three, Shape.rowMajor_val_two]
    show p.val * 128 + s.val = (p.val * 128 + s.val) * 1 + z.val; have := z.isLt; omega)

theorem col_over_classes (x : S8x128x1.Idx → α) (h : S8x128x1.Broadcasts S8x128x1024) (p : Fin 8) (s : Fin 128) (v : Fin 1024) :
    broadcastTo S8x128x1024 x h (ix3 p s v) = x (ix3 p s 0) :=
  broadcastTo_apply x h (ix3 p s v) (ix3 p s 0) (fun a => match a with
    | ⟨0, _⟩ => by show p.val = (if (8 : Nat) = 1 then 0 else p.val); rw [if_neg (by decide)]
    | ⟨1, _⟩ => by show s.val = (if (128 : Nat) = 1 then 0 else s.val); rw [if_neg (by decide)]
    | ⟨2, _⟩ => by show 0 = (if (1 : Nat) = 1 then 0 else v.val); rw [if_pos rfl])

end Layout

/-! ## The logits at an index -/

/-- The body's three products are rows-by-columns products: their dimension numbers are the plain ones. -/
theorem dot_src_eq : dot_S8x256_S256x512_S8x512_1_0_0_1_n_n = DotDims.plain 8 256 512 := rfl
theorem dot_tgt_eq : dot_S128x256_S256x512_S128x512_1_0_0_1_n_n = DotDims.plain 128 256 512 := rfl
theorem dot_out_eq : dot_S1024x512_S512x1024_S1024x1024_1_0_0_1_n_n = DotDims.plain 1024 512 1024 := rfl

/-- THE LOGITS of source row p and target row s of the loaded blocks, at class v: the first layer as the source
    half against the first weight block plus the target half against the second, the bias, the rectifier, the second
    layer and its bias. -/
theorem logits_apply (x0 : Vec Ideal S1x8x256 .f32) (x1 : Vec Ideal S1x128x256 .f32) (x2 x3 : Vec Ideal S256x512 .f32)
    (x4 : Vec Ideal S512x1024 .f32) (x5 : Vec Ideal S1x512 .f32) (x6 : Vec Ideal S1x1024 .f32)
    (p : Fin 8) (s : Fin 128) (v : Fin 1024) :
    k0_pay2 (F := Ideal) x0 x1 x2 x3 x4 x5 x6 (ix3 p s v)
      = logitOf (fun f => x0 (ix3 0 p f)) (fun f => x1 (ix3 0 s f)) (fun f h => x2 (ix2 f h)) (fun f h => x3 (ix2 f h))
          (fun h => x5 (ix2 0 h)) (fun h w => x4 (ix2 h w)) (fun w => x6 (ix2 0 w)) v := by
  unfold k0_pay2 logitOf
  simp only [dot_src_eq, dot_tgt_eq, dot_out_eq, addf_apply, maximumf_apply, truncf_apply, broadcast_apply, matmul,
    logits_unflat, plain_matmul_zero, hidden_flat, over_tgt_rows, over_src_rows, bias1_over_rows, bias2_over_rows,
    src_part_mid_axis, tgt_part_lead_axis, bias1_lead_axis, bias2_lead_axis, rows_of_src_block, rows_of_tgt_block,
    shapeCast_self]
  rfl

end Cert.KernelIdeal.RowValue

end
-- ==== Proof.KernelRow.lean ====
/-
  One block of the kernel's result, entry by entry.

  At a grid point the body stores, for the eight source rows p of its block and the 128 target rows s, the
  log-softmax over the 1024 classes of the logits of the pair (p, s).  Entry (p, s, v) of the stored block is
  `JointSpec.rowOut` of row p of the source block and row s of the target block, at class v: the row's maximum is
  the fold of max from −∞ over the row's logits, the normaliser the sum over the row of the exponentials of the
  shifted logits, both reductions along the class axis.
-/
import proofs.«118946_j26577257628395_1_alg».proof.Proof.Gen.KernelIdeal.Value
import proofs.«118946_j26577257628395_1_alg».proof.Proof.Payload

noncomputable section

namespace Cert.KernelIdeal.RowValue

open Cert.KernelIdeal Cert.KernelIdeal.Gen Idealize.ShloMosaic Idealize.ShloMosaic.ValueIdx Cert.JointSpec

theorem zeros2 : (![0, 0] : Fin 2 → Nat) = fun _ => 0 := funext fun a => by fin_cases a <;> rfl
theorem zeros3 : (![0, 0, 0] : Fin 3 → Nat) = fun _ => 0 := funext fun a => by fin_cases a <;> rfl

/-- The index of the pair (p, s) with the class k put back on the reduced axis. -/
theorem lift_class (hR : S8x128x1024.Reduces [2] S8x128) (p : Fin 8) (s : Fin 128) (k : Fin 1024) :
    hR.lift (ix2 p s) k = ix3 p s k :=
  funext fun c => Fin.ext (by
    match c with
    | ⟨0, _⟩ => rfl
    | ⟨1, _⟩ => rfl
    | ⟨2, _⟩ => rfl)

/-- A maximum along the class axis from −∞, at the pair (p, s): the fold of max over the row's entries. -/
theorem row_max_apply (L : FVec Ideal S8x128x1024 .f32) (hR : S8x128x1024.Reduces [2] S8x128) (hφ : FKind.Formats .f32)
    (hacc : (0xFF800000#32 : BitVec 32) = 0xFF800000#32) (p : Fin 8) (s : Fin 128) :
    multiReduction .maximumf [2] S8x128 L 0xFF800000#32 hR hφ hacc (ix2 p s) = rowMax (fun k => L (ix3 p s k)) := by
  refine (Ideal.multiReduction_maximumf_single L 0xFF800000#32 hR hφ hacc (ix2 p s)).trans ?_
  unfold rowMax
  show Finset.fold max (Ideal.ofBits .f32 0xFF800000#32) (fun k : Fin 1024 => L (hR.lift (ix2 p s) k)) Finset.univ = _
  simp only [lift_class]

/-- A sum along the class axis, at the pair (p, s): the sum of the row's entries. -/
theorem row_sum_apply (X : FVec Ideal S8x128x1024 .f32) (hR : S8x128x1024.Reduces [2] S8x128) (hφ : FKind.Formats .f32)
    (hacc : (0x00000000#32 : BitVec 32) = 0x00000000#32) (p : Fin 8) (s : Fin 128) :
    multiReduction .add [2] S8x128 X 0x00000000#32 hR hφ hacc (ix2 p s) = ∑ k : Fin 1024, X (ix3 p s k) := by
  refine (Ideal.multiReduction_add_single X 0x00000000#32 hR hφ hacc (ix2 p s)).trans ?_
  show ∑ k : Fin 1024, X (hR.lift (ix2 p s) k) = _
  simp only [lift_class]

theorem exp_apply {S : Shape} (x : FVec Ideal S .f32) (i : S.Idx) : exp x i = Ideal.exp (x i) := rfl

/-- Where the stored block's entry (p, s, v) reads the logits, the row maxima and the row sums. -/
theorem at_logit (z : Fin 1) (p : Fin 8) (s : Fin 128) (v : Fin 1024) : Value.ix7_0 (ix4 z p s v) = ix3 p s v :=
  funext fun a => Fin.ext (by match a with | ⟨0, _⟩ => rfl | ⟨1, _⟩ => rfl | ⟨2, _⟩ => rfl)
theorem at_max (z : Fin 1) (p : Fin 8) (s : Fin 128) (v : Fin 1024) : Value.ix7_1 (ix4 z p s v) = ix2 p s :=
  funext fun a => Fin.ext (by match a with | ⟨0, _⟩ => rfl | ⟨1, _⟩ => rfl)
theorem at_sum (z : Fin 1) (p : Fin 8) (s : Fin 128) (v : Fin 1024) : Value.ix7_2 (ix4 z p s v) = ix2 p s :=
  funext fun a => Fin.ext (by match a with | ⟨0, _⟩ => rfl | ⟨1, _⟩ => rfl)

/-- THE STORED BLOCK at (p, s, v): the shifted log-softmax, at class v, of the logits of source row p and target row s. -/
theorem block_eq (P0 : Vec Ideal S1x8x256 .f32) (P1 : Vec Ideal S1x128x256 .f32) (P2 P3 : Vec Ideal S256x512 .f32)
    (P4 : Vec Ideal S512x1024 .f32) (P5 : Vec Ideal S1x512 .f32) (P6 : Vec Ideal S1x1024 .f32)
    (z : Fin 1) (p : Fin 8) (s : Fin 128) (v : Fin 1024) :
    out0_7 P0 P1 P2 P3 P4 P5 P6 (ix4 z p s v)
      = rowOut (fun f => P0 (ix3 0 p f)) (fun f => P1 (ix3 0 s f)) (fun f h => P2 (ix2 f h)) (fun f h => P3 (ix2 f h))
          (fun h => P5 (ix2 0 h)) (fun h w => P4 (ix2 h w)) (fun w => P6 (ix2 0 w)) v := by
  have hL : (fun k : Fin 1024 => k0_pay2 (F := Ideal) P0 P1 P2 P3 P4 P5 P6 (ix3 p s k))
      = logitOf (fun f => P0 (ix3 0 p f)) (fun f => P1 (ix3 0 s f)) (fun f h => P2 (ix2 f h)) (fun f h => P3 (ix2 f h))
          (fun h => P5 (ix2 0 h)) (fun h w => P4 (ix2 h w)) (fun w => P6 (ix2 0 w)) :=
    funext fun k => logits_apply P0 P1 P2 P3 P4 P5 P6 p s k
  unfold out0_7
  simp only [View.ld_unit_zero (S := S1x8x256) zeros3, View.ld_unit_zero (S := S1x128x256) zeros3,
    View.ld_unit_zero (S := S256x512) zeros2, View.ld_unit_zero (S := S512x1024) zeros2,
    View.ld_unit_zero (S := S1x512) zeros2, View.ld_unit_zero (S := S1x1024) zeros2]
  rw [Value.canon7_eq]
  simp only [Value.E7, at_logit, at_max, at_sum]
  rw [row_max_apply, row_sum_apply]
  simp only [exp_apply, subf_apply, col_over_classes, keepdims_col]
  rw [row_max_apply]
  unfold rowOut logSoftmax
  rw [← hL]
  rfl

end Cert.KernelIdeal.RowValue

end
-- ==== Proof.ArrayValue.lean ====
/-
  From the kernel's blocks to its whole result array.

  The kernel runs on a grid of 4 × 32 points.  Point (b, i) reads rows 8·i … 8·i + 7 of source batch entry b, the
  whole target of batch entry b, the two halves of W1, W2 and the two biases laid out as one-row matrices, and writes
  rows 8·i … 8·i + 7 of result batch entry b.  One stored block, entry by entry, is the row function `JointSpec.rowOut`
  of the block's data (`RowValue.block_eq`).  Here each block's data are read back as entries of the six argument
  arrays, so that what a point writes is its block of the one function `JointSpec.G` of the arguments; the 128 blocks
  tile the result array, so the array the run leaves is `G` of the arguments.
-/
import proofs.«118946_j26577257628395_1_alg».proof.Proof.KernelRow
import Idealize.ShloMosaic.Lib.StableHlo.Run
import Idealize.ShloMosaic.Lib.Pipeline.Value
import Idealize.ShloMosaic.Lib.ValueIdx

noncomputable section

namespace Cert.KernelIdeal.ArrayValue

open Cert.KernelIdeal Cert.KernelIdeal.Gen Idealize.ShloMosaic Idealize.ShloMosaic.TcCoe Idealize.SL.Sem
open Idealize.ShloMosaic.ValueIdx Cert.JointSpec
open Idealize.ShloMosaic.Pipeline (Dat)

variable (m : (ℓ : Loc nD τ sig) → Buf (Elt Ideal) ℓ) (ρ : Dev nD → PrngReg)

/-! ## The four arrays the host prepares before the kernel's region

The region does not read W1, b1 and b2 themselves: the host first cuts W1 into its first and its last 256 rows and
lays each bias out as a one-row matrix. -/

/-- The first prepared array is rows 0 … 255 of W1. -/
theorem w1Lo_eq (c : Dev nD) :
    (V m c main_v0 : S256x512.Idx → EReal)
      = extractStridedSlice S256x512 ![0, 0] (m ((c : Thread nD τ).loc main_arg2)) slices_S512x512_S256x512_0_0 := by
  dsimp only [Gen.V, Gen.hostOps0]; after_results

/-- The second is rows 256 … 511 of W1. -/
theorem w1Hi_eq (c : Dev nD) :
    (V m c main_v1 : S256x512.Idx → EReal)
      = extractStridedSlice S256x512 ![256, 0] (m ((c : Thread nD τ).loc main_arg2)) slices_S512x512_S256x512_256_0 := by
  dsimp only [Gen.V, Gen.hostOps0]; after_results

/-- The third is b1 as a matrix of one row. -/
theorem b1Row_eq (c : Dev nD) :
    (V m c main_v2 : S1x512.Idx → EReal)
      = shapeCast S1x512 (m ((c : Thread nD τ).loc main_arg3)) shapeCasts_S512_S1x512 := by
  dsimp only [Gen.V, Gen.hostOps0]; after_results; rfl

/-- The fourth is b2 as a matrix of one row. -/
theorem b2Row_eq (c : Dev nD) :
    (V m c main_v3 : S1x1024.Idx → EReal)
      = shapeCast S1x1024 (m ((c : Thread nD τ).loc main_arg5)) shapeCasts_S1024_S1x1024 := by
  dsimp only [Gen.V, Gen.hostOps0]; after_results; rfl

/-- Entry (f, h) of the first prepared array is W1 at row f. -/
theorem w1Lo_apply (c : Dev nD) (f : Fin 256) (h : Fin 512) :
    (V m c main_v0 : S256x512.Idx → EReal) (ix2 f h)
      = (m ((c : Thread nD τ).loc main_arg2) : S512x512.Idx → EReal) (ix2 (lo f) h) := by
  rw [w1Lo_eq]
  refine extractStridedSlice_apply _ _ _ (ix2 f h) (ix2 (lo f) h) fun a => ?_
  match a with
  | ⟨0, _⟩ => show f.val = 0 + f.val; omega
  | ⟨1, _⟩ => show h.val = 0 + h.val; omega

/-- Entry (f, h) of the second is W1 at row 256 + f. -/
theorem w1Hi_apply (c : Dev nD) (f : Fin 256) (h : Fin 512) :
    (V m c main_v1 : S256x512.Idx → EReal) (ix2 f h)
      = (m ((c : Thread nD τ).loc main_arg2) : S512x512.Idx → EReal) (ix2 (hi f) h) := by
  rw [w1Hi_eq]
  refine extractStridedSlice_apply _ _ _ (ix2 f h) (ix2 (hi f) h) fun a => ?_
  match a with
  | ⟨0, _⟩ => show 256 + f.val = 256 + f.val; rfl
  | ⟨1, _⟩ => show h.val = 0 + h.val; omega

/-- Entry (0, h) of the one-row b1 is b1 at h. -/
theorem b1Row_apply (c : Dev nD) (h : Fin 512) :
    (V m c main_v2 : S1x512.Idx → EReal) (ix2 0 h)
      = (m ((c : Thread nD τ).loc main_arg3) : S512.Idx → EReal) (ix1 h) := by
  rw [b1Row_eq]
  refine shapeCast_apply _ _ (ix2 0 h) (ix1 h) ?_
  rw [Shape.rowMajor_val_one, Shape.rowMajor_val_two]
  show h.val = 0 * 512 + h.val
  omega

/-- Entry (0, w) of the one-row b2 is b2 at w. -/
theorem b2Row_apply (c : Dev nD) (w : Fin 1024) :
    (V m c main_v3 : S1x1024.Idx → EReal) (ix2 0 w)
      = (m ((c : Thread nD τ).loc main_arg5) : S1024.Idx → EReal) (ix1 w) := by
  rw [b2Row_eq]
  refine shapeCast_apply _ _ (ix2 0 w) (ix1 w) ?_
  rw [Shape.rowMajor_val_one, Shape.rowMajor_val_two]
  show w.val = 0 * 1024 + w.val
  omega

/-! ## The blocks a grid point reads

Grid point t = (b, i) reads rows 8·i … 8·i + 7 of source batch entry b, all 128 target rows of batch entry b, and
the five parameter arrays whole; it writes rows 8·i … 8·i + 7 of result batch entry b. -/

/-- The printed index maps, decided once over the 128 grid points: the source block moves with the result block on
    the batch and row axes, the target block with it on the batch axis, every other block index is 0, and the result's
    block indices stay below 4 and 32. -/
theorem block_indices : ∀ t : Fin cfg0.N,
    win0_0.index t (0 : Fin 3) = win0_7.index t (0 : Fin 4)
    ∧ win0_0.index t (1 : Fin 3) = win0_7.index t (1 : Fin 4)
    ∧ win0_0.index t (2 : Fin 3) = 0
    ∧ win0_1.index t (0 : Fin 3) = win0_7.index t (0 : Fin 4)
    ∧ win0_1.index t (1 : Fin 3) = 0
    ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (2 : Fin 4) = 0 ∧ win0_7.index t (3 : Fin 4) = 0
    ∧ win0_7.index t (0 : Fin 4) < 4 ∧ win0_7.index t (1 : Fin 4) < 32 :=
  (by decide +kernel : ∀ t : Fin grid0.N, _)

/-- Every pair (batch entry, group of eight source rows) is SOME grid point's result block. -/
theorem block_onto : ∀ (q0 : Fin 4) (q1 : Fin 32), ∃ t : Fin cfg0.N, win0_7.index t = ![q0.val, q1.val, 0, 0] :=
  (by decide +kernel : ∀ (q0 : Fin 4) (q1 : Fin 32), ∃ t : Fin grid0.N, win0_7.index t = ![q0.val, q1.val, 0, 0])

/-- Row p, feature f of the source block at point t is the source array at the point's batch entry, row 8·i + p. -/
theorem srcBlock_apply (c : Dev nD) (t : Fin cfg0.N) (p : Fin 8) (f : Fin 256) (k : S4x256x256.Idx)
    (hk0 : (k 0).val = win0_7.index t (0 : Fin 4)) (hk1 : (k 1).val = win0_7.index t (1 : Fin 4) * 8 + p.val)
    (hk2 : (k 2).val = f.val) :
    (iblk m c 0 t : Vec Ideal S1x8x256 .f32) (ix3 0 p f)
      = (m ((c : Thread nD τ).loc main_arg0) : S4x256x256.Idx → EReal) k := by
  obtain ⟨e0, e1, e2, -⟩ := block_indices t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 3) * 1 + 1 * 0 = (k 0).val; rw [e0, hk0]; omega
  | ⟨1, _⟩ => show win0_0.index t (1 : Fin 3) * 8 + 1 * p.val = (k 1).val; rw [e1, hk1]; omega
  | ⟨2, _⟩ => show win0_0.index t (2 : Fin 3) * 256 + 1 * f.val = (k 2).val; rw [e2, hk2]; omega

/-- Row s, feature f of the target block at point t is the target array at the point's batch entry, row s. -/
theorem tgtBlock_apply (c : Dev nD) (t : Fin cfg0.N) (s : Fin 128) (f : Fin 256) (k : S4x128x256.Idx)
    (hk0 : (k 0).val = win0_7.index t (0 : Fin 4)) (hk1 : (k 1).val = s.val) (hk2 : (k 2).val = f.val) :
    (iblk m c 1 t : Vec Ideal S1x128x256 .f32) (ix3 0 s f)
      = (m ((c : Thread nD τ).loc main_arg1) : S4x128x256.Idx → EReal) k := by
  obtain ⟨-, -, -, e0, e1, e2, -⟩ := block_indices t
  unfold iblk
  rw [View.read_apply]
  show V m c main_arg1 _ = m ((c : Thread nD τ).loc main_arg1) _
  rw [V_main_arg1]
  congr 1
  funext a
  apply Fin.ext
  match a with
  | ⟨0, _⟩ => show win0_1.index t (0 : Fin 3) * 1 + 1 * 0 = (k 0).val; rw [e0, hk0]; omega
  | ⟨1, _⟩ => show win0_1.index t (1 : Fin 3) * 128 + 1 * s.val = (k 1).val; rw [e1, hk1]; omega
  | ⟨2, _⟩ => show win0_1.index t (2 : Fin 3) * 256 + 1 * f.val = (k 2).val; rw [e2, hk2]; omega

/-- The first-half block of W1 at any point is the whole prepared array. -/
theorem w1LoBlock_apply (c : Dev nD) (t : Fin cfg0.N) (f : Fin 256) (h : Fin 512) :
    (iblk m c 2 t : Vec Ideal S256x512 .f32) (ix2 f h) = (V m c main_v0 : S256x512.Idx → EReal) (ix2 f h) := by
  obtain ⟨-, -, -, -, -, -, e0, e1, -⟩ := block_indices t
  unfold iblk
  rw [View.read_apply]
  show V m c main_v0 _ = V m c main_v0 _
  congr 1
  funext a
  apply Fin.ext
  match a with
  | ⟨0, _⟩ => show win0_2.index t (0 : Fin 2) * 256 + 1 * f.val = f.val; rw [e0]; omega
  | ⟨1, _⟩ => show win0_2.index t (1 : Fin 2) * 512 + 1 * h.val = h.val; rw [e1]; omega

/-- The second-half block of W1 at any point is the whole prepared array. -/
theorem w1HiBlock_apply (c : Dev nD) (t : Fin cfg0.N) (f : Fin 256) (h : Fin 512) :
    (iblk m c 3 t : Vec Ideal S256x512 .f32) (ix2 f h) = (V m c main_v1 : S256x512.Idx → EReal) (ix2 f h) := by
  obtain ⟨-, -, -, -, -, -, -, -, e0, e1, -⟩ := block_indices t
  unfold iblk
  rw [View.read_apply]
  show V m c main_v1 _ = V m c main_v1 _
  congr 1
  funext a
  apply Fin.ext
  match a with
  | ⟨0, _⟩ => show win0_3.index t (0 : Fin 2) * 256 + 1 * f.val = f.val; rw [e0]; omega
  | ⟨1, _⟩ => show win0_3.index t (1 : Fin 2) * 512 + 1 * h.val = h.val; rw [e1]; omega

/-- The block of W2 at any point is W2. -/
theorem w2Block_apply (c : Dev nD) (t : Fin cfg0.N) (h : Fin 512) (w : Fin 1024) :
    (iblk m c 4 t : Vec Ideal S512x1024 .f32) (ix2 h w)
      = (m ((c : Thread nD τ).loc main_arg4) : S512x1024.Idx → EReal) (ix2 h w) := by
  obtain ⟨-, -, -, -, -, -, -, -, -, -, e0, e1, -⟩ := block_indices t
  unfold iblk
  rw [View.read_apply]
  show V m c main_arg4 _ = m ((c : Thread nD τ).loc main_arg4) _
  rw [V_main_arg4]
  congr 1
  funext a
  apply Fin.ext
  match a with
  | ⟨0, _⟩ => show win0_4.index t (0 : Fin 2) * 512 + 1 * h.val = h.val; rw [e0]; omega
  | ⟨1, _⟩ => show win0_4.index t (1 : Fin 2) * 1024 + 1 * w.val = w.val; rw [e1]; omega

/-- The block of the one-row b1 at any point is the whole prepared row. -/
theorem b1Block_apply (c : Dev nD) (t : Fin cfg0.N) (h : Fin 512) :
    (iblk m c 5 t : Vec Ideal S1x512 .f32) (ix2 0 h) = (V m c main_v2 : S1x512.Idx → EReal) (ix2 0 h) := by
  obtain ⟨-, -, -, -, -, -, -, -, -, -, -, -, e0, e1, -⟩ := block_indices t
  unfold iblk
  rw [View.read_apply]
  show V m c main_v2 _ = V m c main_v2 _
  congr 1
  funext a
  apply Fin.ext
  match a with
  | ⟨0, _⟩ => show win0_5.index t (0 : Fin 2) * 1 + 1 * 0 = 0; rw [e0]
  | ⟨1, _⟩ => show win0_5.index t (1 : Fin 2) * 512 + 1 * h.val = h.val; rw [e1]; omega

/-- The block of the one-row b2 at any point is the whole prepared row. -/
theorem b2Block_apply (c : Dev nD) (t : Fin cfg0.N) (w : Fin 1024) :
    (iblk m c 6 t : Vec Ideal S1x1024 .f32) (ix2 0 w) = (V m c main_v3 : S1x1024.Idx → EReal) (ix2 0 w) := by
  obtain ⟨-, -, -, -, -, -, -, -, -, -, -, -, -, -, e0, e1, -⟩ := block_indices t
  unfold iblk
  rw [View.read_apply]
  show V m c main_v3 _ = V m c main_v3 _
  congr 1
  funext a
  apply Fin.ext
  match a with
  | ⟨0, _⟩ => show win0_6.index t (0 : Fin 2) * 1 + 1 * 0 = 0; rw [e0]
  | ⟨1, _⟩ => show win0_6.index t (1 : Fin 2) * 1024 + 1 * w.val = w.val; rw [e1]; omega

/-! ## What a grid point writes back, and the whole result -/

/-- Two rows' results agree when their data agree entry by entry. -/
theorem rowOut_congr {a0 a0' a1 a1' : Fin 256 → EReal} {a2 a2' a3 a3' : Fin 256 → Fin 512 → EReal}
    {a5 a5' : Fin 512 → EReal} {a4 a4' : Fin 512 → Fin 1024 → EReal} {a6 a6' : Fin 1024 → EReal}
    (h0 : ∀ f, a0 f = a0' f) (h1 : ∀ f, a1 f = a1' f) (h2 : ∀ f h, a2 f h = a2' f h) (h3 : ∀ f h, a3 f h = a3' f h)
    (h5 : ∀ h, a5 h = a5' h) (h4 : ∀ h w, a4 h w = a4' h w) (h6 : ∀ w, a6 w = a6' w) (v : Fin 1024) :
    rowOut a0 a1 a2 a3 a5 a4 a6 v = rowOut a0' a1' a2' a3' a5' a4' a6' v := by
  obtain rfl : a0 = a0' := funext h0
  obtain rfl : a1 = a1' := funext h1
  obtain rfl : a2 = a2' := funext fun f => funext (h2 f)
  obtain rfl : a3 = a3' := funext fun f => funext (h3 f)
  obtain rfl : a5 = a5' := funext h5
  obtain rfl : a4 = a4' := funext fun h => funext (h4 h)
  obtain rfl : a6 = a6' := funext h6
  rfl

/-- WHAT POINT t WRITES BACK is block t of the joint network's result array. -/
theorem flushed_eq (c : Dev nD) (t : Fin cfg0.N) :
    (dats m 0 c).flushed 7 t = ((cfg0.win 7).blk t).view.read (Elt Ideal)
      (G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  rw [Value.flushed7]
  obtain ⟨-, -, -, -, -, -, -, -, -, -, -, -, -, -, -, -, e2, e3, b0, b1⟩ := block_indices t
  refine funext fun (y : S1x8x128x1024.Idx) => ?_
  obtain ⟨z, p, s, v, rfl⟩ : ∃ z p s v, y = ix4 z p s v := ⟨y 0, y 1, y 2, y 3, eq_ix4 y⟩
  have hz : z.val = 0 := by have := z.isLt; omega
  have hemb : ((cfg0.win 7).blk t).view.emb (ix4 z p s v)
      = (ix4 ⟨win0_7.index t (0 : Fin 4), b0⟩ ⟨win0_7.index t (1 : Fin 4) * 8 + p.val, by have := p.isLt; omega⟩ s v : S4x256x128x1024.Idx) := by
    funext a
    apply Fin.ext
    match a with
    | ⟨0, _⟩ => show win0_7.index t (0 : Fin 4) * 1 + 1 * z.val = win0_7.index t (0 : Fin 4); omega
    | ⟨1, _⟩ => show win0_7.index t (1 : Fin 4) * 8 + 1 * p.val = win0_7.index t (1 : Fin 4) * 8 + p.val; omega
    | ⟨2, _⟩ => show win0_7.index t (2 : Fin 4) * 128 + 1 * s.val = s.val; rw [e2]; omega
    | ⟨3, _⟩ => show win0_7.index t (3 : Fin 4) * 1024 + 1 * v.val = v.val; rw [e3]; omega
  show out0_7 (iblk m c 0 t) (iblk m c 1 t) (iblk m c 2 t) (iblk m c 3 t) (iblk m c 4 t) (iblk m c 5 t) (iblk m c 6 t) (ix4 z p s v)
    = G _ _ _ _ _ _ (((cfg0.win 7).blk t).view.emb (ix4 z p s v))
  rw [hemb, RowValue.block_eq]
  unfold G
  refine rowOut_congr (fun f => ?_) (fun f => ?_) (fun f h => ?_) (fun f h => ?_) (fun h => ?_) (fun h w => ?_) (fun w => ?_) v
  · exact srcBlock_apply m c t p f _ rfl rfl rfl
  · exact tgtBlock_apply m c t s f _ rfl rfl rfl
  · exact (w1LoBlock_apply m c t f h).trans (w1Lo_apply m c f h)
  · exact (w1HiBlock_apply m c t f h).trans (w1Hi_apply m c f h)
  · exact (b1Block_apply m c t h).trans (b1Row_apply m c h)
  · exact w2Block_apply m c t h w
  · exact (b2Block_apply m c t w).trans (b2Row_apply m c w)

/-- An index of the result array is in point t's block iff each coordinate is in the block's range on its axis. -/
theorem mem_blk (t : Fin cfg0.N) (i : S4x256x128x1024.Idx) :
    i ∈ ((cfg0.win 7).blk t).view.set ↔ ∀ a : Fin 4, win0_7.index t a * S1x8x128x1024.size a ≤ (i a).val
      ∧ (i a).val < win0_7.index t a * S1x8x128x1024.size a + S1x8x128x1024.size a := by
  show i ∈ ((View.whole main_v4).slice (win0_7.rect t)).set ↔ _
  rw [View.set_slice_whole, Rect.mem_set_unit]
  exact Iff.rfl

/-- THE BLOCKS COVER THE RESULT: entry (b, r, s, v) lies in the block of the point with block indices (b, r / 8). -/
theorem cover (i : S4x256x128x1024.Idx) :
    ∃ t : Fin cfg0.N, (cfg0.win 7).flush t = true ∧ i ∈ ((cfg0.win 7).blk t).view.set := by
  have hi0 : (i 0).val < 4 := (i 0).isLt
  have hi1 : (i 1).val < 256 := (i 1).isLt
  have hi2 : (i 2).val < 128 := (i 2).isLt
  have hi3 : (i 3).val < 1024 := (i 3).isLt
  obtain ⟨t, ht⟩ := block_onto ⟨(i 0).val, hi0⟩ ⟨(i 1).val / 8, by omega⟩
  have q0 : win0_7.index t (0 : Fin 4) = (i 0).val := congrFun ht 0
  have q1 : win0_7.index t (1 : Fin 4) = (i 1).val / 8 := congrFun ht 1
  have q2 : win0_7.index t (2 : Fin 4) = 0 := congrFun ht 2
  have q3 : win0_7.index t (3 : Fin 4) = 0 := congrFun ht 3
  refine ⟨t, flush0_7 t, ?_⟩
  rw [mem_blk]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 8 ≤ (i 1).val ∧ (i 1).val < win0_7.index t (1 : Fin 4) * 8 + 8; omega
  | ⟨2, _⟩ => show win0_7.index t (2 : Fin 4) * 128 ≤ (i 2).val ∧ (i 2).val < win0_7.index t (2 : Fin 4) * 128 + 128; omega
  | ⟨3, _⟩ => show win0_7.index t (3 : Fin 4) * 1024 ≤ (i 3).val ∧ (i 3).val < win0_7.index t (3 : Fin 4) * 1024 + 1024; omega

/-- THE RESULT ARRAY after the run is the joint network's value of the six argument arrays. -/
theorem final7 (c : Dev nD) :
    (dats m 0 c).arrAt 7 cfg0.N
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) :=
  (dats m 0 c).arrAt_eq_of_cover 7 _ (fun t _ => flushed_eq m c t) cover

/-- THE RUN, READ: every weakly fair execution of the kernel program ends with the result array at the joint
    network's value of the argument arrays, and the six argument arrays as launched. -/
theorem run : θ_run defs (onTc (τ := τ) (main (F := Ideal))) ⟨m, fun _ => 0, ρ⟩ fun r => ∀ c : Dev nD,
      r.2.mem ((c : Thread nD τ).loc main_v4)
        = Cert.JointSpec.G (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final7 m c), (h c).2⟩) (Value.run_blocks m ρ)

end Cert.KernelIdeal.ArrayValue

end
-- ==== Proof.RefIsSpec.lean ====
/-
  The reference program's value is the joint network's specification.

  The reference concatenates the broadcast source and target encodings along the feature axis, multiplies the
  concatenated row with W1, adds b1, rectifies, multiplies with W2, adds b2, and takes the log-softmax of the logits
  along the class axis.  Read index by index, each stage is the corresponding stage of the specification: the
  product with the concatenated row splits at feature 256 into the source half and the target half; the row maximum
  is the fold of max from −∞ (the further maximum with −∞ the reference takes is the identity); the normaliser is the
  logarithm of the sum, from zero, of the exponentials of the shifted logits.
-/
import proofs.«118946_j26577257628395_1_alg».proof.Proof.RefRead
import proofs.«118946_j26577257628395_1_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Cert.JointSpec
open Idealize.ShloMosaic Idealize.ShloMosaic.ValueIdx Idealize.ShloMosaic.StableHlo

/-- The source encodings, the target encodings, the two weight matrices and the two biases, at the ideal values. -/
abbrev TSrc := (⟨S4x256x256, .f32⟩ : BufTy).Contents (Elt Ideal)
abbrev TTgt := (⟨S4x128x256, .f32⟩ : BufTy).Contents (Elt Ideal)
abbrev TW1 := (⟨S512x512, .f32⟩ : BufTy).Contents (Elt Ideal)
abbrev TB1 := (⟨S512, .f32⟩ : BufTy).Contents (Elt Ideal)
abbrev TW2 := (⟨S512x1024, .f32⟩ : BufTy).Contents (Elt Ideal)
abbrev TB2 := (⟨S1024, .f32⟩ : BufTy).Contents (Elt Ideal)

/-! ## The concatenated row -/

/-- Below feature 256 the concatenated row is the source encoding of (b, t). -/
theorem cat_lo (x0 : TSrc) (x1 : TTgt) (b : Fin 4) (t : Fin 256) (s : Fin 128) (f : Fin 256) :
    val_main_v4 (F := Ideal) x0 x1 (ix4 b t s (lo f)) = x0 (ix3 b t f) := by
  unfold val_main_v4
  rw [concatenate_pair_apply_left (s₁ := S4x256x128x256) (s₂ := S4x256x128x256) (3 : Fin 4) _ _ _ (ix4 b t s (lo f)) rfl (ix4 b t s f)
    (fun a => by match a with | ⟨0, _⟩ => rfl | ⟨1, _⟩ => rfl | ⟨2, _⟩ => rfl | ⟨3, _⟩ => rfl)]
  rw [val_main_v1_apply, val_main_v0_apply]
  exact congrArg x0 (funext fun a => Fin.ext (by match a with | ⟨0, _⟩ => rfl | ⟨1, _⟩ => rfl | ⟨2, _⟩ => rfl))

/-- From feature 256 on the concatenated row is the target encoding of (b, s). -/
theorem cat_hi (x0 : TSrc) (x1 : TTgt) (b : Fin 4) (t : Fin 256) (s : Fin 128) (f : Fin 256) :
    val_main_v4 (F := Ideal) x0 x1 (ix4 b t s (hi f)) = x1 (ix3 b s f) := by
  unfold val_main_v4
  rw [concatenate_pair_apply_right (s₁ := S4x256x128x256) (s₂ := S4x256x128x256) (3 : Fin 4) _ _ _ (ix4 b t s (hi f)) rfl rfl (ix4 b t s f)
    (fun a => by match a with
      | ⟨0, _⟩ => intro _; rfl | ⟨1, _⟩ => intro _; rfl | ⟨2, _⟩ => intro _; rfl | ⟨3, _⟩ => intro h; exact absurd rfl h)
    (by show f.val + 256 = 256 + f.val; omega)]
  rw [val_main_v3_apply, val_main_v2_apply]
  exact congrArg x1 (funext fun a => Fin.ext (by match a with | ⟨0, _⟩ => rfl | ⟨1, _⟩ => rfl | ⟨2, _⟩ => rfl))

/-! ## The first layer -/

/-- The contraction index of the first product runs along the concatenated row … -/
theorem lidx5 (b : Fin 4) (t : Fin 256) (s : Fin 128) (h k : Fin 512) :
    lidx_main_v5 (ix4 b t s h) k = ix4 b t s k :=
  funext fun a => Fin.ext (by match a with | ⟨0, _⟩ => rfl | ⟨1, _⟩ => rfl | ⟨2, _⟩ => rfl | ⟨3, _⟩ => rfl)

/-- … and down column h of W1. -/
theorem ridx5 (b : Fin 4) (t : Fin 256) (s : Fin 128) (h k : Fin 512) :
    ridx_main_v5 (ix4 b t s h) k = ix2 k h :=
  funext fun a => Fin.ext (by match a with | ⟨0, _⟩ => rfl | ⟨1, _⟩ => rfl)

/-- The product of the concatenated row with W1 is the source half against W1's first 256 rows plus the target half
    against its last 256 rows. -/
theorem dot1_at (x0 : TSrc) (x1 : TTgt) (x2 : TW1) (b : Fin 4) (t : Fin 256) (s : Fin 128) (h : Fin 512) :
    val_main_v5 (F := Ideal) x0 x1 x2 (ix4 b t s h)
      = ∑ f : Fin 256, x0 (ix3 b t f) * x2 (ix2 (lo f) h) + ∑ f : Fin 256, x1 (ix3 b s f) * x2 (ix2 (hi f) h) := by
  rw [val_main_v5_apply]
  simp only [lidx5, ridx5]
  rw [sum_split]
  show (∑ f : Fin 256, val_main_v4 (F := Ideal) x0 x1 (ix4 b t s (lo f)) * x2 (ix2 (lo f) h))
      + ∑ f : Fin 256, val_main_v4 (F := Ideal) x0 x1 (ix4 b t s (hi f)) * x2 (ix2 (hi f) h) = _
  simp only [cat_lo, cat_hi]

/-- A hidden unit: the first layer's sum plus its bias, rectified. -/
theorem hid_at (x0 : TSrc) (x1 : TTgt) (x2 : TW1) (x3 : TB1) (b : Fin 4) (t : Fin 256) (s : Fin 128) (h : Fin 512) :
    val_main_v9 (F := Ideal) x0 x1 x2 x3 (ix4 b t s h)
      = max ((∑ f : Fin 256, x0 (ix3 b t f) * x2 (ix2 (lo f) h) + ∑ f : Fin 256, x1 (ix3 b s f) * x2 (ix2 (hi f) h))
          + x3 (ix1 h)) (Ideal.ofBits .f32 0x00000000#32) := by
  rw [val_main_v9_apply, val_main_v8_apply, val_main_call0_v0_apply, val_main_call0_cst_apply, val_main_v7_apply,
    val_main_v6_apply, dot1_at,
    show idx_main_v6 (idx_main_v7 (ix4 b t s h)) = ix1 h from
      funext fun a => Fin.ext (by match a with | ⟨0, _⟩ => rfl)]
  rfl

/-! ## The second layer -/

/-- One row's logits, from the argument arrays. -/
abbrev logits (x0 : TSrc) (x1 : TTgt) (x2 : TW1) (x3 : TB1) (x4 : TW2) (x5 : TB2) (b : Fin 4) (t : Fin 256)
    (s : Fin 128) : Fin 1024 → EReal :=
  logitOf (fun f => x0 (ix3 b t f)) (fun f => x1 (ix3 b s f)) (fun f h => x2 (ix2 (lo f) h))
    (fun f h => x2 (ix2 (hi f) h)) (fun h => x3 (ix1 h)) (fun h v => x4 (ix2 h v)) (fun v => x5 (ix1 v))

theorem lidx10 (b : Fin 4) (t : Fin 256) (s : Fin 128) (v : Fin 1024) (k : Fin 512) :
    lidx_main_v10 (ix4 b t s v) k = ix4 b t s k :=
  funext fun a => Fin.ext (by match a with | ⟨0, _⟩ => rfl | ⟨1, _⟩ => rfl | ⟨2, _⟩ => rfl | ⟨3, _⟩ => rfl)

theorem ridx10 (b : Fin 4) (t : Fin 256) (s : Fin 128) (v : Fin 1024) (k : Fin 512) :
    ridx_main_v10 (ix4 b t s v) k = ix2 k v :=
  funext fun a => Fin.ext (by match a with | ⟨0, _⟩ => rfl | ⟨1, _⟩ => rfl)

/-- The reference's logit of class v in the row of (b, t, s) is the specification's. -/
theorem logit_at (x0 : TSrc) (x1 : TTgt) (x2 : TW1) (x3 : TB1) (x4 : TW2) (x5 : TB2) (b : Fin 4) (t : Fin 256)
    (s : Fin 128) (v : Fin 1024) :
    val_main_v13 (F := Ideal) x0 x1 x2 x3 x4 x5 (ix4 b t s v) = logits x0 x1 x2 x3 x4 x5 b t s v := by
  rw [val_main_v13_apply, val_main_v10_apply, val_main_v12_apply, val_main_v11_apply,
    show idx_main_v11 (idx_main_v12 (ix4 b t s v)) = ix1 v from
      funext fun a => Fin.ext (by match a with | ⟨0, _⟩ => rfl)]
  simp only [lidx10, ridx10, hid_at]
  rfl

/-! ## The log-softmax -/

/-- The class axis of the logits is the one the row maximum and the row sum run over. -/
theorem reduces3 : S4x256x128x1024.Reduces [3] S4x256x128 := by decide

/-- A row index with the class coordinate k inserted is the index (b, t, s, k). -/
theorem lift_at (b : Fin 4) (t : Fin 256) (s : Fin 128) (k : Fin 1024) :
    reduces3.lift (ix3 b t s) k = ix4 b t s k :=
  funext fun a => Fin.ext (by match a with | ⟨0, _⟩ => rfl | ⟨1, _⟩ => rfl | ⟨2, _⟩ => rfl | ⟨3, _⟩ => rfl)

/-- The reference's row maximum is the fold of max from −∞ over the row's logits. -/
theorem rowmax_at (x0 : TSrc) (x1 : TTgt) (x2 : TW1) (x3 : TB1) (x4 : TW2) (x5 : TB2) (b : Fin 4) (t : Fin 256)
    (s : Fin 128) :
    val_main_call1_v0 (F := Ideal) x0 x1 x2 x3 x4 x5 (ix3 b t s) = rowMax (logits x0 x1 x2 x3 x4 x5 b t s) := by
  unfold val_main_call1_v0
  refine (Host.reduce_eq_fold_single _ _ _ _ reduces3 h_S_ (ix3 b t s)).trans ?_
  have e : (val_main_v13 (F := Ideal) x0 x1 x2 x3 x4 x5 ∘ reduces3.lift (ix3 b t s))
      = logits x0 x1 x2 x3 x4 x5 b t s := funext fun (k : Fin 1024) =>
    (congrArg (val_main_v13 (F := Ideal) x0 x1 x2 x3 x4 x5) (lift_at b t s k)).trans
      (logit_at x0 x1 x2 x3 x4 x5 b t s k)
  rw [e]
  rfl

/-- The shifted logit: the further maximum with −∞ the reference takes of the row maximum changes nothing. -/
theorem shift_at (x0 : TSrc) (x1 : TTgt) (x2 : TW1) (x3 : TB1) (x4 : TW2) (x5 : TB2) (b : Fin 4) (t : Fin 256)
    (s : Fin 128) (v : Fin 1024) :
    val_main_call1_v5 (F := Ideal) x0 x1 x2 x3 x4 x5 (ix4 b t s v)
      = logits x0 x1 x2 x3 x4 x5 b t s v - rowMax (logits x0 x1 x2 x3 x4 x5 b t s) := by
  rw [val_main_call1_v5_apply, val_main_call1_v4_apply, val_main_call1_v3_apply, val_main_call1_v2_apply,
    val_main_call1_v1_apply, val_main_call1_cst_0_apply, logit_at,
    show idx_main_call1_v3 (idx_main_call1_v4 (ix4 b t s v)) = ix3 b t s from
      funext fun a => Fin.ext (by match a with | ⟨0, _⟩ => rfl | ⟨1, _⟩ => rfl | ⟨2, _⟩ => rfl),
    rowmax_at]
  show logits x0 x1 x2 x3 x4 x5 b t s v
      - max (Ideal.ofBits .f32 0xFF800000#32) (rowMax (logits x0 x1 x2 x3 x4 x5 b t s)) = _
  rw [max_neg_inf]

theorem idx7 (b : Fin 4) (t : Fin 256) (s : Fin 128) (k : Fin 1024) :
    idx_main_call1_v7 (ix3 b t s) k = ix4 b t s k :=
  funext fun a => Fin.ext (by match a with | ⟨0, _⟩ => rfl | ⟨1, _⟩ => rfl | ⟨2, _⟩ => rfl | ⟨3, _⟩ => rfl)

/-- The row's normaliser: the sum, from zero, of the exponentials of the shifted logits. -/
theorem sumexp_at (x0 : TSrc) (x1 : TTgt) (x2 : TW1) (x3 : TB1) (x4 : TW2) (x5 : TB2) (b : Fin 4) (t : Fin 256)
    (s : Fin 128) :
    val_main_call1_v7 (F := Ideal) x0 x1 x2 x3 x4 x5 (ix3 b t s)
      = ∑ k : Fin 1024, Ideal.exp (logits x0 x1 x2 x3 x4 x5 b t s k - rowMax (logits x0 x1 x2 x3 x4 x5 b t s)) := by
  rw [val_main_call1_v7_apply, val_main_call1_cst_1_apply]
  simp only [val_main_call1_v6_apply, idx7, shift_at]
  show Ideal.ofBits .f32 0x00000000#32
      + ∑ k : Fin 1024, Ideal.exp (logits x0 x1 x2 x3 x4 x5 b t s k - rowMax (logits x0 x1 x2 x3 x4 x5 b t s)) = _
  rw [Ideal.ofBits_zero_f32, zero_add]

/-- The reference's result at (b, t, s, v) is class v of the specification's row. -/
theorem out_at (x0 : TSrc) (x1 : TTgt) (x2 : TW1) (x3 : TB1) (x4 : TW2) (x5 : TB2) (b : Fin 4) (t : Fin 256)
    (s : Fin 128) (v : Fin 1024) :
    val_main_v14 (F := Ideal) x0 x1 x2 x3 x4 x5 (ix4 b t s v)
      = logSoftmax (logits x0 x1 x2 x3 x4 x5 b t s) v := by
  rw [val_main_v14_apply, val_main_call1_v10_apply, val_main_call1_v9_apply, val_main_call1_v8_apply, shift_at,
    show idx_main_call1_v8 (idx_main_call1_v10 (ix4 b t s v)) = ix3 b t s from
      funext fun a => Fin.ext (by match a with | ⟨0, _⟩ => rfl | ⟨1, _⟩ => rfl | ⟨2, _⟩ => rfl),
    sumexp_at]
  rfl

/-- THE REFERENCE IS THE SPECIFICATION: its result array is G of its argument arrays. -/
theorem val_eq_G (x0 : (⟨Cert.ReferenceIdeal.S4x256x256, .f32⟩ : BufTy).Contents (Elt Ideal))
    (x1 : (⟨Cert.ReferenceIdeal.S4x128x256, .f32⟩ : BufTy).Contents (Elt Ideal))
    (x2 : (⟨Cert.ReferenceIdeal.S512x512, .f32⟩ : BufTy).Contents (Elt Ideal))
    (x3 : (⟨Cert.ReferenceIdeal.S512, .f32⟩ : BufTy).Contents (Elt Ideal))
    (x4 : (⟨Cert.ReferenceIdeal.S512x1024, .f32⟩ : BufTy).Contents (Elt Ideal))
    (x5 : (⟨Cert.ReferenceIdeal.S1024, .f32⟩ : BufTy).Contents (Elt Ideal)) :
    Cert.ReferenceIdeal.Read.val_main_v14 (F := Ideal) x0 x1 x2 x3 x4 x5 = Cert.JointSpec.G x0 x1 x2 x3 x4 x5 := by
  funext i
  obtain ⟨b, t, s, v, rfl⟩ : ∃ (b : Fin 4) (t : Fin 256) (s : Fin 128) (v : Fin 1024), i = ix4 b t s v :=
    ⟨i 0, i 1, i 2, i 3, eq_ix4 i⟩
  rw [out_at]
  rfl

end Cert.ReferenceIdeal.RefValue

end
-- ==== Proof.RefRun.lean ====
/-
  The reference program's run, read back.

  @main is a straight line of 31 array operations on the six argument arrays: the two encodings broadcast against
  each other and joined along the feature axis, the first layer (product with W1, bias), the rectifier, the second
  layer (product with W2, bias), and the log-softmax along the class axis.  Every weakly fair execution of such a
  line terminates with each buffer at the fold of the operations' results over the launch contents.  What the
  result buffer holds after that fold is computed here in three stretches, each for an ARBITRARY valuation of the
  buffers before it, so that no stretch looks into the one before:

    operations 1–9    leave the first layer's value of arrays 0–3 in the first layer's buffer, arrays 4 and 5 untouched;
    operations 10–16  leave `hostLayer2` of that buffer and of arrays 4 and 5 in the logits' buffer;
    operations 17–31  leave `hostLogSoftmax` of the logits' buffer in the result buffer.

  The operations of the two called functions (the rectifier and the log-softmax) move their operands from a buffer's
  own type to the value's type and their result back; a value moved there and back is the value (`ofBuf_toBuf`), and
  at a literal buffer each single move is the identity.  The composition of the three stretches is the program's
  value as the operation-by-operation reading states it (`Read.val_main_v14`), by unfolding.  No operation writes an
  argument's buffer.
-/
import proofs.«118946_j26577257628395_1_alg».proof.Proof.RefRead
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The whole program: the 31 operations of @main, in order (the two called functions' operations stand where
    their calls stood). -/
abbrev ops : List (HloOp τ sig (Elt F)) :=
  [ unary main_arg0 main_v0 (broadcastInDim S4x256x1x256 ![0, 1, 3] bcast_S4x256x256_S4x256x1x256_0_1_3 : (⟨S4x256x256, .f32⟩ : BufTy).Contents (Elt F) → (⟨S4x256x1x256, .f32⟩ : BufTy).Contents (Elt F)),
    unary main_v0 main_v1 (broadcastInDim S4x256x128x256 ![0, 1, 2, 3] bcast_S4x256x1x256_S4x256x128x256_0_1_2_3 : (⟨S4x256x1x256, .f32⟩ : BufTy).Contents (Elt F) → (⟨S4x256x128x256, .f32⟩ : BufTy).Contents (Elt F)),
    unary main_arg1 main_v2 (broadcastInDim S4x1x128x256 ![0, 2, 3] bcast_S4x128x256_S4x1x128x256_0_2_3 : (⟨S4x128x256, .f32⟩ : BufTy).Contents (Elt F) → (⟨S4x1x128x256, .f32⟩ : BufTy).Contents (Elt F)),
    unary main_v2 main_v3 (broadcastInDim S4x256x128x256 ![0, 1, 2, 3] bcast_S4x1x128x256_S4x256x128x256_0_1_2_3 : (⟨S4x1x128x256, .f32⟩ : BufTy).Contents (Elt F) → (⟨S4x256x128x256, .f32⟩ : BufTy).Contents (Elt F)),
    binary main_v1 main_v3 main_v4 ((fun a b => concatenate S4x256x128x512 3 [⟨S4x256x128x256, a⟩, ⟨S4x256x128x256, b⟩] concatenates_S4x256x128x256_S4x256x128x256_S4x256x128x512_d3) : (⟨S4x256x128x256, .f32⟩ : BufTy).Contents (Elt F) → (⟨S4x256x128x256, .f32⟩ : BufTy).Contents (Elt F) → (⟨S4x256x128x512, .f32⟩ : BufTy).Contents (Elt F)),
    binary main_v4 main_arg2 main_v5 ((fun l r => Host.dotGeneral dot_S4x256x128x512_S512x512_S4x256x128x512_3_0_012_1_n_n none l r) : (⟨S4x256x128x512, .f32⟩ : BufTy).Contents (Elt F) → (⟨S512x512, .f32⟩ : BufTy).Contents (Elt F) → (⟨S4x256x128x512, .f32⟩ : BufTy).Contents (Elt F)),
    unary main_arg3 main_v6 (broadcastInDim S1x1x1x512 ![3] bcast_S512_S1x1x1x512_3 : (⟨S512, .f32⟩ : BufTy).Contents (Elt F) → (⟨S1x1x1x512, .f32⟩ : BufTy).Contents (Elt F)),
    unary main_v6 main_v7 (broadcastInDim S4x256x128x512 ![0, 1, 2, 3] bcast_S1x1x1x512_S4x256x128x512_0_1_2_3 : (⟨S1x1x1x512, .f32⟩ : BufTy).Contents (Elt F) → (⟨S4x256x128x512, .f32⟩ : BufTy).Contents (Elt F)),
    binary main_v5 main_v7 main_v8 (addf : (⟨S4x256x128x512, .f32⟩ : BufTy).Contents (Elt F) → (⟨S4x256x128x512, .f32⟩ : BufTy).Contents (Elt F) → (⟨S4x256x128x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4x256x128x512, .f32⟩) main_call0_v0) (broadcastInDim S4x256x128x512 ![] bcast_S_S4x256x128x512),
    TRef.binary (TRef.of (T := ⟨S4x256x128x512, .f32⟩) main_v8) (TRef.of (T := ⟨S4x256x128x512, .f32⟩) main_call0_v0) (TRef.of (T := ⟨S4x256x128x512, .f32⟩) main_v9) maximumf,
    binary main_v9 main_arg4 main_v10 ((fun l r => Host.dotGeneral dot_S4x256x128x512_S512x1024_S4x256x128x1024_3_0_012_1_n_n none l r) : (⟨S4x256x128x512, .f32⟩ : BufTy).Contents (Elt F) → (⟨S512x1024, .f32⟩ : BufTy).Contents (Elt F) → (⟨S4x256x128x1024, .f32⟩ : BufTy).Contents (Elt F)),
    unary main_arg5 main_v11 (broadcastInDim S1x1x1x1024 ![3] bcast_S1024_S1x1x1x1024_3 : (⟨S1024, .f32⟩ : BufTy).Contents (Elt F) → (⟨S1x1x1x1024, .f32⟩ : BufTy).Contents (Elt F)),
    unary main_v11 main_v12 (broadcastInDim S4x256x128x1024 ![0, 1, 2, 3] bcast_S1x1x1x1024_S4x256x128x1024_0_1_2_3 : (⟨S1x1x1x1024, .f32⟩ : BufTy).Contents (Elt F) → (⟨S4x256x128x1024, .f32⟩ : BufTy).Contents (Elt F)),
    binary main_v10 main_v12 main_v13 (addf : (⟨S4x256x128x1024, .f32⟩ : BufTy).Contents (Elt F) → (⟨S4x256x128x1024, .f32⟩ : BufTy).Contents (Elt F) → (⟨S4x256x128x1024, .f32⟩ : BufTy).Contents (Elt F)),
    TRef.nullary (TRef.of (T := ⟨S_, .f32⟩) main_call1_cst) (constant S_ .f32 0xFF800000#32),
    TRef.binary (TRef.of (T := ⟨S4x256x128x1024, .f32⟩) main_v13) (TRef.of (T := ⟨S_, .f32⟩) main_call1_cst) (TRef.of (T := ⟨S4x256x128, .f32⟩) main_call1_v0) (fun x v => Host.reduce FloatOps.maximumf x v reducesTo_S4x256x128x1024_S4x256x128_d3 h_S_),
    TRef.nullary (TRef.of (T := ⟨S_, .f32⟩) main_call1_cst_0) (constant S_ .f32 0xFF800000#32),
    TRef.unary (TRef.of (T := ⟨S_, .f32⟩) main_call1_cst_0) (TRef.of (T := ⟨S4x256x128, .f32⟩) main_call1_v1) (broadcastInDim S4x256x128 ![] bcast_S_S4x256x128),
    TRef.binary (TRef.of (T := ⟨S4x256x128, .f32⟩) main_call1_v1) (TRef.of (T := ⟨S4x256x128, .f32⟩) main_call1_v0) (TRef.of (T := ⟨S4x256x128, .f32⟩) main_call1_v2) maximumf,
    TRef.unary (TRef.of (T := ⟨S4x256x128, .f32⟩) main_call1_v2) (TRef.of (T := ⟨S4x256x128x1, .f32⟩) main_call1_v3) (broadcastInDim S4x256x128x1 ![0, 1, 2] bcast_S4x256x128_S4x256x128x1_0_1_2),
    TRef.unary (TRef.of (T := ⟨S4x256x128x1, .f32⟩) main_call1_v3) (TRef.of (T := ⟨S4x256x128x1024, .f32⟩) main_call1_v4) (broadcastInDim S4x256x128x1024 ![0, 1, 2, 3] bcast_S4x256x128x1_S4x256x128x1024_0_1_2_3),
    TRef.binary (TRef.of (T := ⟨S4x256x128x1024, .f32⟩) main_v13) (TRef.of (T := ⟨S4x256x128x1024, .f32⟩) main_call1_v4) (TRef.of (T := ⟨S4x256x128x1024, .f32⟩) main_call1_v5) subf,
    TRef.unary (TRef.of (T := ⟨S4x256x128x1024, .f32⟩) main_call1_v5) (TRef.of (T := ⟨S4x256x128x1024, .f32⟩) main_call1_v6) Host.exp,
    TRef.nullary (TRef.of (T := ⟨S_, .f32⟩) main_call1_cst_1) (constant S_ .f32 0x00000000#32),
    TRef.binary (TRef.of (T := ⟨S4x256x128x1024, .f32⟩) main_call1_v6) (TRef.of (T := ⟨S_, .f32⟩) main_call1_cst_1) (TRef.of (T := ⟨S4x256x128, .f32⟩) main_call1_v7) (fun x v => Host.reduceAdd x v reducesTo_S4x256x128x1024_S4x256x128_d3 h_S_),
    TRef.unary (TRef.of (T := ⟨S4x256x128, .f32⟩) main_call1_v7) (TRef.of (T := ⟨S4x256x128x1, .f32⟩) main_call1_v8) (broadcastInDim S4x256x128x1 ![0, 1, 2] bcast_S4x256x128_S4x256x128x1_0_1_2),
    TRef.unary (TRef.of (T := ⟨S4x256x128x1, .f32⟩) main_call1_v8) (TRef.of (T := ⟨S4x256x128x1, .f32⟩) main_call1_v9) Host.log,
    TRef.unary (TRef.of (T := ⟨S4x256x128x1, .f32⟩) main_call1_v9) (TRef.of (T := ⟨S4x256x128x1024, .f32⟩) main_call1_v10) (broadcastInDim S4x256x128x1024 ![0, 1, 2, 3] bcast_S4x256x128x1_S4x256x128x1024_0_1_2_3),
    TRef.binary (TRef.of (T := ⟨S4x256x128x1024, .f32⟩) main_call1_v5) (TRef.of (T := ⟨S4x256x128x1024, .f32⟩) main_call1_v10) (TRef.of (T := ⟨S4x256x128x1024, .f32⟩) main_v14) subf ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The three stretches

The first layer (the two encodings broadcast against each other, joined along the feature axis, multiplied into W1,
the bias added): operations 1–9.  The rectifier and the second layer: operations 10–16.  The log-softmax along the
class axis: operations 17–31. -/

/-- The first layer's nine operations. -/
abbrev opsA : List (HloOp τ sig (Elt F)) :=
  [ unary main_arg0 main_v0 (broadcastInDim S4x256x1x256 ![0, 1, 3] bcast_S4x256x256_S4x256x1x256_0_1_3 : (⟨S4x256x256, .f32⟩ : BufTy).Contents (Elt F) → (⟨S4x256x1x256, .f32⟩ : BufTy).Contents (Elt F)),
    unary main_v0 main_v1 (broadcastInDim S4x256x128x256 ![0, 1, 2, 3] bcast_S4x256x1x256_S4x256x128x256_0_1_2_3 : (⟨S4x256x1x256, .f32⟩ : BufTy).Contents (Elt F) → (⟨S4x256x128x256, .f32⟩ : BufTy).Contents (Elt F)),
    unary main_arg1 main_v2 (broadcastInDim S4x1x128x256 ![0, 2, 3] bcast_S4x128x256_S4x1x128x256_0_2_3 : (⟨S4x128x256, .f32⟩ : BufTy).Contents (Elt F) → (⟨S4x1x128x256, .f32⟩ : BufTy).Contents (Elt F)),
    unary main_v2 main_v3 (broadcastInDim S4x256x128x256 ![0, 1, 2, 3] bcast_S4x1x128x256_S4x256x128x256_0_1_2_3 : (⟨S4x1x128x256, .f32⟩ : BufTy).Contents (Elt F) → (⟨S4x256x128x256, .f32⟩ : BufTy).Contents (Elt F)),
    binary main_v1 main_v3 main_v4 ((fun a b => concatenate S4x256x128x512 3 [⟨S4x256x128x256, a⟩, ⟨S4x256x128x256, b⟩] concatenates_S4x256x128x256_S4x256x128x256_S4x256x128x512_d3) : (⟨S4x256x128x256, .f32⟩ : BufTy).Contents (Elt F) → (⟨S4x256x128x256, .f32⟩ : BufTy).Contents (Elt F) → (⟨S4x256x128x512, .f32⟩ : BufTy).Contents (Elt F)),
    binary main_v4 main_arg2 main_v5 ((fun l r => Host.dotGeneral dot_S4x256x128x512_S512x512_S4x256x128x512_3_0_012_1_n_n none l r) : (⟨S4x256x128x512, .f32⟩ : BufTy).Contents (Elt F) → (⟨S512x512, .f32⟩ : BufTy).Contents (Elt F) → (⟨S4x256x128x512, .f32⟩ : BufTy).Contents (Elt F)),
    unary main_arg3 main_v6 (broadcastInDim S1x1x1x512 ![3] bcast_S512_S1x1x1x512_3 : (⟨S512, .f32⟩ : BufTy).Contents (Elt F) → (⟨S1x1x1x512, .f32⟩ : BufTy).Contents (Elt F)),
    unary main_v6 main_v7 (broadcastInDim S4x256x128x512 ![0, 1, 2, 3] bcast_S1x1x1x512_S4x256x128x512_0_1_2_3 : (⟨S1x1x1x512, .f32⟩ : BufTy).Contents (Elt F) → (⟨S4x256x128x512, .f32⟩ : BufTy).Contents (Elt F)),
    binary main_v5 main_v7 main_v8 (addf : (⟨S4x256x128x512, .f32⟩ : BufTy).Contents (Elt F) → (⟨S4x256x128x512, .f32⟩ : BufTy).Contents (Elt F) → (⟨S4x256x128x512, .f32⟩ : BufTy).Contents (Elt F)) ]

/-- The rectifier's three operations and the second layer's four. -/
abbrev opsB : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S4x256x128x512, .f32⟩) main_call0_v0) (broadcastInDim S4x256x128x512 ![] bcast_S_S4x256x128x512),
    TRef.binary (TRef.of (T := ⟨S4x256x128x512, .f32⟩) main_v8) (TRef.of (T := ⟨S4x256x128x512, .f32⟩) main_call0_v0) (TRef.of (T := ⟨S4x256x128x512, .f32⟩) main_v9) maximumf,
    binary main_v9 main_arg4 main_v10 ((fun l r => Host.dotGeneral dot_S4x256x128x512_S512x1024_S4x256x128x1024_3_0_012_1_n_n none l r) : (⟨S4x256x128x512, .f32⟩ : BufTy).Contents (Elt F) → (⟨S512x1024, .f32⟩ : BufTy).Contents (Elt F) → (⟨S4x256x128x1024, .f32⟩ : BufTy).Contents (Elt F)),
    unary main_arg5 main_v11 (broadcastInDim S1x1x1x1024 ![3] bcast_S1024_S1x1x1x1024_3 : (⟨S1024, .f32⟩ : BufTy).Contents (Elt F) → (⟨S1x1x1x1024, .f32⟩ : BufTy).Contents (Elt F)),
    unary main_v11 main_v12 (broadcastInDim S4x256x128x1024 ![0, 1, 2, 3] bcast_S1x1x1x1024_S4x256x128x1024_0_1_2_3 : (⟨S1x1x1x1024, .f32⟩ : BufTy).Contents (Elt F) → (⟨S4x256x128x1024, .f32⟩ : BufTy).Contents (Elt F)),
    binary main_v10 main_v12 main_v13 (addf : (⟨S4x256x128x1024, .f32⟩ : BufTy).Contents (Elt F) → (⟨S4x256x128x1024, .f32⟩ : BufTy).Contents (Elt F) → (⟨S4x256x128x1024, .f32⟩ : BufTy).Contents (Elt F)) ]

/-- The log-softmax's fifteen operations. -/
abbrev opsC : List (HloOp τ sig (Elt F)) :=
  [ TRef.nullary (TRef.of (T := ⟨S_, .f32⟩) main_call1_cst) (constant S_ .f32 0xFF800000#32),
    TRef.binary (TRef.of (T := ⟨S4x256x128x1024, .f32⟩) main_v13) (TRef.of (T := ⟨S_, .f32⟩) main_call1_cst) (TRef.of (T := ⟨S4x256x128, .f32⟩) main_call1_v0) (fun x v => Host.reduce FloatOps.maximumf x v reducesTo_S4x256x128x1024_S4x256x128_d3 h_S_),
    TRef.nullary (TRef.of (T := ⟨S_, .f32⟩) main_call1_cst_0) (constant S_ .f32 0xFF800000#32),
    TRef.unary (TRef.of (T := ⟨S_, .f32⟩) main_call1_cst_0) (TRef.of (T := ⟨S4x256x128, .f32⟩) main_call1_v1) (broadcastInDim S4x256x128 ![] bcast_S_S4x256x128),
    TRef.binary (TRef.of (T := ⟨S4x256x128, .f32⟩) main_call1_v1) (TRef.of (T := ⟨S4x256x128, .f32⟩) main_call1_v0) (TRef.of (T := ⟨S4x256x128, .f32⟩) main_call1_v2) maximumf,
    TRef.unary (TRef.of (T := ⟨S4x256x128, .f32⟩) main_call1_v2) (TRef.of (T := ⟨S4x256x128x1, .f32⟩) main_call1_v3) (broadcastInDim S4x256x128x1 ![0, 1, 2] bcast_S4x256x128_S4x256x128x1_0_1_2),
    TRef.unary (TRef.of (T := ⟨S4x256x128x1, .f32⟩) main_call1_v3) (TRef.of (T := ⟨S4x256x128x1024, .f32⟩) main_call1_v4) (broadcastInDim S4x256x128x1024 ![0, 1, 2, 3] bcast_S4x256x128x1_S4x256x128x1024_0_1_2_3),
    TRef.binary (TRef.of (T := ⟨S4x256x128x1024, .f32⟩) main_v13) (TRef.of (T := ⟨S4x256x128x1024, .f32⟩) main_call1_v4) (TRef.of (T := ⟨S4x256x128x1024, .f32⟩) main_call1_v5) subf,
    TRef.unary (TRef.of (T := ⟨S4x256x128x1024, .f32⟩) main_call1_v5) (TRef.of (T := ⟨S4x256x128x1024, .f32⟩) main_call1_v6) Host.exp,
    TRef.nullary (TRef.of (T := ⟨S_, .f32⟩) main_call1_cst_1) (constant S_ .f32 0x00000000#32),
    TRef.binary (TRef.of (T := ⟨S4x256x128x1024, .f32⟩) main_call1_v6) (TRef.of (T := ⟨S_, .f32⟩) main_call1_cst_1) (TRef.of (T := ⟨S4x256x128, .f32⟩) main_call1_v7) (fun x v => Host.reduceAdd x v reducesTo_S4x256x128x1024_S4x256x128_d3 h_S_),
    TRef.unary (TRef.of (T := ⟨S4x256x128, .f32⟩) main_call1_v7) (TRef.of (T := ⟨S4x256x128x1, .f32⟩) main_call1_v8) (broadcastInDim S4x256x128x1 ![0, 1, 2] bcast_S4x256x128_S4x256x128x1_0_1_2),
    TRef.unary (TRef.of (T := ⟨S4x256x128x1, .f32⟩) main_call1_v8) (TRef.of (T := ⟨S4x256x128x1, .f32⟩) main_call1_v9) Host.log,
    TRef.unary (TRef.of (T := ⟨S4x256x128x1, .f32⟩) main_call1_v9) (TRef.of (T := ⟨S4x256x128x1024, .f32⟩) main_call1_v10) (broadcastInDim S4x256x128x1024 ![0, 1, 2, 3] bcast_S4x256x128x1_S4x256x128x1024_0_1_2_3),
    TRef.binary (TRef.of (T := ⟨S4x256x128x1024, .f32⟩) main_call1_v5) (TRef.of (T := ⟨S4x256x128x1024, .f32⟩) main_call1_v10) (TRef.of (T := ⟨S4x256x128x1024, .f32⟩) main_v14) subf ]

theorem ops_eq : (ops : List (HloOp τ sig (Elt F))) = opsA ++ (opsB ++ opsC) := rfl

/-- The contents after the whole program are those after the three stretches in turn. -/
theorem after_ops (V : Valuation τ sig (Elt F)) : after ops V = after opsC (after opsB (after opsA V)) := by
  rw [ops_eq, StableHlo.after_append, StableHlo.after_append]

/-! ## The first layer -/

/-- After the first layer its last buffer holds the first layer's value of the four arrays it reads. -/
theorem afterA_v8 (V : Valuation τ sig (Elt F)) :
    after opsA V (Proc.devRef .tc main_v8)
      = Read.val_main_v8 (F := F) (V (Proc.devRef .tc main_arg0)) (V (Proc.devRef .tc main_arg1))
          (V (Proc.devRef .tc main_arg2)) (V (Proc.devRef .tc main_arg3)) := by
  after_results
  rfl

/-- The first layer leaves the second layer's weights and bias where they were. -/
theorem afterA_arg4 (V : Valuation τ sig (Elt F)) :
    after opsA V (Proc.devRef .tc main_arg4) = V (Proc.devRef .tc main_arg4) := by after_results
theorem afterA_arg5 (V : Valuation τ sig (Elt F)) :
    after opsA V (Proc.devRef .tc main_arg5) = V (Proc.devRef .tc main_arg5) := by after_results

/-- Contents moved to a buffer's own type and back are the contents (the two transports are along one equation
    and its reverse). -/
theorem ofBuf_toBuf {T : BufTy} (x : TRef sig T) (v : T.Contents (Elt F)) : x.ofBuf (x.toBuf v) = v := by
  obtain ⟨r, h, hd, hu⟩ := x
  subst h
  rfl

/-! ## The rectifier and the second layer -/

/-- What operations 10–16 compute from the first layer's value and the second layer's weights and bias: the
    maximum with zero, the product with W2, the bias added. -/
def hostLayer2 (y : (⟨S4x256x128x512, .f32⟩ : BufTy).Contents (Elt F)) (x4 : (⟨S512x1024, .f32⟩ : BufTy).Contents (Elt F)) (x5 : (⟨S1024, .f32⟩ : BufTy).Contents (Elt F)) : (⟨S4x256x128x1024, .f32⟩ : BufTy).Contents (Elt F) :=
  addf
    (Host.dotGeneral dot_S4x256x128x512_S512x1024_S4x256x128x1024_3_0_012_1_n_n none
      (maximumf y (broadcastInDim S4x256x128x512 ![] bcast_S_S4x256x128x512 (constant S_ .f32 0x00000000#32))) x4)
    (broadcastInDim S4x256x128x1024 ![0, 1, 2, 3] bcast_S1x1x1x1024_S4x256x128x1024_0_1_2_3
      (broadcastInDim S1x1x1x1024 ![3] bcast_S1024_S1x1x1x1024_3 x5))

/-- After the second stretch the logits' buffer holds `hostLayer2` of what the first layer left and of W2 and b2. -/
theorem afterB_v13 (V : Valuation τ sig (Elt F)) :
    after opsB V (Proc.devRef .tc main_v13)
      = hostLayer2 (F := F) (V (Proc.devRef .tc main_v8)) (V (Proc.devRef .tc main_arg4)) (V (Proc.devRef .tc main_arg5)) := by
  after_results
  simp only [ofBuf_toBuf]
  rfl

/-- The logits as the reading of the program states them are `hostLayer2` of the first layer's value. -/
theorem val_main_v13_eq (x0 : (⟨S4x256x256, .f32⟩ : BufTy).Contents (Elt F)) (x1 : (⟨S4x128x256, .f32⟩ : BufTy).Contents (Elt F)) (x2 : (⟨S512x512, .f32⟩ : BufTy).Contents (Elt F)) (x3 : (⟨S512, .f32⟩ : BufTy).Contents (Elt F))
    (x4 : (⟨S512x1024, .f32⟩ : BufTy).Contents (Elt F)) (x5 : (⟨S1024, .f32⟩ : BufTy).Contents (Elt F)) :
    Read.val_main_v13 (F := F) x0 x1 x2 x3 x4 x5 = hostLayer2 (Read.val_main_v8 (F := F) x0 x1 x2 x3) x4 x5 := rfl

/-! ## The log-softmax -/

/-- The logits less their row's maximum (the maximum folded from −∞ along the class axis, then once more against −∞,
    and broadcast back along the class axis). -/
def hostShifted (y : (⟨S4x256x128x1024, .f32⟩ : BufTy).Contents (Elt F)) : (⟨S4x256x128x1024, .f32⟩ : BufTy).Contents (Elt F) :=
  subf y
    (broadcastInDim S4x256x128x1024 ![0, 1, 2, 3] bcast_S4x256x128x1_S4x256x128x1024_0_1_2_3
      (broadcastInDim S4x256x128x1 ![0, 1, 2] bcast_S4x256x128_S4x256x128x1_0_1_2
        (maximumf (broadcastInDim S4x256x128 ![] bcast_S_S4x256x128 (constant S_ .f32 0xFF800000#32))
          (Host.reduce FloatOps.maximumf y (constant S_ .f32 0xFF800000#32) reducesTo_S4x256x128x1024_S4x256x128_d3 h_S_))))

/-- The log-softmax of the logits: the shifted logits less the logarithm of the row sum of their exponentials. -/
def hostLogSoftmax (y : (⟨S4x256x128x1024, .f32⟩ : BufTy).Contents (Elt F)) : (⟨S4x256x128x1024, .f32⟩ : BufTy).Contents (Elt F) :=
  subf (hostShifted y)
    (broadcastInDim S4x256x128x1024 ![0, 1, 2, 3] bcast_S4x256x128x1_S4x256x128x1024_0_1_2_3
      (Host.log
        (broadcastInDim S4x256x128x1 ![0, 1, 2] bcast_S4x256x128_S4x256x128x1_0_1_2
          (Host.reduceAdd (Host.exp (hostShifted y)) (constant S_ .f32 0x00000000#32) reducesTo_S4x256x128x1024_S4x256x128_d3 h_S_))))

/-- After the third stretch the result buffer holds the log-softmax of what the logits' buffer held. -/
theorem afterC_v14 (V : Valuation τ sig (Elt F)) :
    after opsC V (Proc.devRef .tc main_v14) = hostLogSoftmax (F := F) (V (Proc.devRef .tc main_v13)) := by
  after_results
  simp only [ofBuf_toBuf]
  rfl

/-- The result as the reading of the program states it is the log-softmax of the logits. -/
theorem val_main_v14_eq (x0 : (⟨S4x256x256, .f32⟩ : BufTy).Contents (Elt F)) (x1 : (⟨S4x128x256, .f32⟩ : BufTy).Contents (Elt F)) (x2 : (⟨S512x512, .f32⟩ : BufTy).Contents (Elt F)) (x3 : (⟨S512, .f32⟩ : BufTy).Contents (Elt F))
    (x4 : (⟨S512x1024, .f32⟩ : BufTy).Contents (Elt F)) (x5 : (⟨S1024, .f32⟩ : BufTy).Contents (Elt F)) :
    Read.val_main_v14 (F := F) x0 x1 x2 x3 x4 x5 = hostLogSoftmax (Read.val_main_v13 (F := F) x0 x1 x2 x3 x4 x5) := rfl

/-! ## The whole program -/

/-- After the whole program the result buffer holds the program's value of the six argument arrays. -/
theorem after_v14 (V : Valuation τ sig (Elt F)) :
    after ops V (Proc.devRef .tc main_v14)
      = Read.val_main_v14 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [after_ops, afterC_v14, afterB_v13, afterA_v8, afterA_arg4, afterA_arg5, val_main_v14_eq, val_main_v13_eq]

/-- No operation writes an argument's buffer. -/
theorem after_arg0 (V : Valuation τ sig (Elt F)) : after ops V (Proc.devRef .tc main_arg0) = V (Proc.devRef .tc main_arg0) := by
  after_results_simp
theorem after_arg1 (V : Valuation τ sig (Elt F)) : after ops V (Proc.devRef .tc main_arg1) = V (Proc.devRef .tc main_arg1) := by
  after_results_simp
theorem after_arg2 (V : Valuation τ sig (Elt F)) : after ops V (Proc.devRef .tc main_arg2) = V (Proc.devRef .tc main_arg2) := by
  after_results_simp
theorem after_arg3 (V : Valuation τ sig (Elt F)) : after ops V (Proc.devRef .tc main_arg3) = V (Proc.devRef .tc main_arg3) := by
  after_results_simp
theorem after_arg4 (V : Valuation τ sig (Elt F)) : after ops V (Proc.devRef .tc main_arg4) = V (Proc.devRef .tc main_arg4) := by
  after_results_simp
theorem after_arg5 (V : Valuation τ sig (Elt F)) : after ops V (Proc.devRef .tc main_arg5) = V (Proc.devRef .tc main_arg5) := by
  after_results_simp

/-- On every device, for any float values, from any memory with zero counters: every weakly fair execution of
    @main terminates with the result buffer at the program's value of the six argument arrays, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14)
          = Cert.ReferenceIdeal.Read.val_main_v14 (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v14).trans (after_v14 (launchContents m c)),
      (h c main_arg0).trans (after_arg0 (launchContents m c)),
      (h c main_arg1).trans (after_arg1 (launchContents m c)),
      (h c main_arg2).trans (after_arg2 (launchContents m c)),
      (h c main_arg3).trans (after_arg3 (launchContents m c)),
      (h c main_arg4).trans (after_arg4 (launchContents m c)),
      (h c main_arg5).trans (after_arg5 (launchContents m c))⟩)
    (run_seq scopedRefs_eq scopedSems_eq defs main (fun _ => ops) main_eq (fun _ => ops_sub) m ρ)

end Cert.ReferenceIdeal.RefRun

end
-- ==== Proof.lean ====
/-
  The joint network kernel computes what its reference computes.

  Both programs map source encodings src[4,256,256], target encodings tgt[4,128,256], W1[512,512], b1[512],
  W2[512,1024], b2[1024] to  out[b,t,s,·] = log_softmax( relu( [src(b,t,·), tgt(b,s,·)] · W1 + b1 ) · W2 + b2 ).
  The kernel never forms the concatenated rows: it multiplies the source rows with the first 256 rows of W1 and the
  target rows with the last 256 and adds the two — the same sum over 512 features split at 256, which needs only that
  addition on the extended reals is associative and commutative.  The rest is the same expression on both sides, a
  rounding to bf16 being the identity at the ideal values, a matrix product a sum over the contracted index, a reduction
  along the class axis a fold of max or a sum over the row.

  Both sides are proved equal to one function `JointSpec.G` of the argument arrays (Proof/Spec.lean): the kernel block
  by block (Proof/Payload.lean, Proof/KernelRow.lean, Proof/ArrayValue.lean), the reference operation by operation
  (Proof/RefIsSpec.lean over Proof/RefRead.lean, its run in Proof/RefRun.lean).  Nothing in the ideal pass's ledger:
  the idealised kernel is the kernel's own text read at the ideal values.
-/
import proofs.«118946_j26577257628395_1_alg».proof.Defs
import proofs.«118946_j26577257628395_1_alg».proof.Proof.Gen.Kernel
import proofs.«118946_j26577257628395_1_alg».proof.Proof.Gen.Kernel.Frame
import proofs.«118946_j26577257628395_1_alg».proof.Proof.Gen.KernelIdeal
import proofs.«118946_j26577257628395_1_alg».proof.Proof.Gen.KernelIdeal.Frame
import proofs.«118946_j26577257628395_1_alg».proof.Proof.Gen.ReferenceIdeal
import proofs.«118946_j26577257628395_1_alg».proof.Proof.Gen.Pre_finite_inputs
import proofs.«118946_j26577257628395_1_alg».proof.Proof.ArrayValue
import proofs.«118946_j26577257628395_1_alg».proof.Proof.RefIsSpec
import proofs.«118946_j26577257628395_1_alg».proof.Proof.RefRun
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel : Cert.frame_Kernel := fun m ρ _ => Cert.Kernel.Gen.frame m ρ

/-- So does its reading at the ideal values. -/
theorem frame_kernel_ideal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- From memories that agree on the six arguments both programs end with the result array at `JointSpec.G` of
    the arguments: the kernel by its blocks, the reference by its operations. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.val_eq_G, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
